-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S64x32 .f32) (main_arg5 : FVec F S32 .f32) (main_arg6 : FVec F S32x1 .f32) (main_arg7 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg4
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x1 .f32 := Host.absf main_arg6
  let main_cst_10 : FVec F S_ .f32 := constant S_ .f32 0x7F800000#32
  let main_v30 : FVec F S32x1 .f32 := broadcastInDim S32x1 ![] bcast_S_S32x1 main_cst_10
  let main_v31 : IVec S32x1 1 := cmpf .olt main_v29 main_v30
  let main_c_11 : IVec S_ 1 := constantI S_ 1 1#1
  let main_v32 : IVec S_ 1 := (fun x v => Host.reduce IntOp.andi x v reducesTo_S32x1_S_d0_1 h_S_) main_v31 main_c_11
  let main_v33 : IVec S_ 1 := andi main_v28 main_v32
  fn_part2 (F := F) main_arg7 main_v33

def fn {F : FTy → Type} [FloatOps F] (main_arg0 : FVec F S10000x10000 .f32) (main_arg1 : FVec F S10000x128 .f32) (main_arg2 : FVec F S128x64 .f32) (main_arg3 : FVec F S64 .f32) (main_arg4 : FVec F S64x32 .f32) (main_arg5 : FVec F S32 .f32) (main_arg6 : FVec F S32x1 .f32) (main_arg7 : FVec F S1 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_v13 main_v16
-- ==== Kernel.lean ====
abbrev S10000x10000 : Shape := ⟨2, ![10000, 10000]⟩
abbrev S10000x128 : Shape := ⟨2, ![10000, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x64 : Shape := ⟨2, ![1, 64]⟩
abbrev S1x32 : Shape := ⟨2, ![1, 32]⟩
abbrev S1x1 : Shape := ⟨2, ![1, 1]⟩
abbrev S10000x1 : Shape := ⟨2, ![10000, 1]⟩
abbrev S400x10000 : Shape := ⟨2, ![400, 10000]⟩
abbrev S400x128 : Shape := ⟨2, ![400, 128]⟩
abbrev S400x1 : Shape := ⟨2, ![400, 1]⟩
abbrev S10000x64 : Shape := ⟨2, ![10000, 64]⟩
abbrev S400x64 : Shape := ⟨2, ![400, 64]⟩
abbrev S400x32 : Shape := ⟨2, ![400, 32]⟩

abbrev nBuf : Space → Nat
  | .hbm => 13
  | .vmem => 15
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S10000x128, .bf16⟩
  | .hbm, ⟨9, _⟩ => ⟨S1x64, .f32⟩
  | .hbm, ⟨10, _⟩ => ⟨S1x32, .f32⟩
  | .hbm, ⟨11, _⟩ => ⟨S1x1, .f32⟩
  | .hbm, ⟨12, _⟩ => ⟨S10000x1, .f32⟩
  | .local _ .vmem, ⟨0, _⟩ => ⟨S400x10000, .f32⟩
  | .local _ .vmem, ⟨1, _⟩ => ⟨S400x10000, .f32⟩
  | .local _ .vmem, ⟨2, _⟩ => ⟨S10000x128, .bf16⟩
  | .local _ .vmem, ⟨3, _⟩ => ⟨S400x128, .f32⟩
  | .local _ .vmem, ⟨4, _⟩ => ⟨S400x128, .f32⟩
  | .local _ .vmem, ⟨5, _⟩ => ⟨S1x64, .f32⟩
  | .local _ .vmem, ⟨6, _⟩ => ⟨S128x64, .f32⟩
  | .local _ .vmem, ⟨7, _⟩ => ⟨S1x32, .f32⟩
  | .local _ .vmem, ⟨8, _⟩ => ⟨S64x32, .f32⟩
  | .local _ .vmem, ⟨9, _⟩ => ⟨S32x1, .f32⟩
  | .local _ .vmem, ⟨10, _⟩ => ⟨S1x1, .f32⟩
  | .local _ .vmem, ⟨11, _⟩ => ⟨S400x1, .f32⟩
  | .local _ .vmem, ⟨12, _⟩ => ⟨S400x1, .f32⟩
  | .local _ .vmem, ⟨13, _⟩ => ⟨S10000x64, .f32⟩
  | .local _ .vmem, ⟨14, _⟩ => ⟨S10000x64, .bf16⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![50], ![false]⟩

def k0_cond1 (i : grid0.Coords) : BitVec 1 :=
  let arg0 : BitVec 32 := BitVec.ofNat 32 (i 0).val
  let c25_i32 : BitVec 32 := 25#32
  let v0 : BitVec 1 := Scalar.cmpi .slt arg0 c25_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg0 : BitVec 32 := BitVec.ofNat 32 (i 0).val
  let c400_i32 : BitVec 32 := 400#32
  let v25 : BitVec 32 := Scalar.muli arg0 c400_i32
  let v26 : Index := Scalar.indexCast v25
  let c0_14 : Index := 0#32
  ![v26.toNat, 0]
def k0_cond2 (i : grid0.Coords) : BitVec 1 :=
  let arg0 : BitVec 32 := BitVec.ofNat 32 (i 0).val
  let c25_i32_0 : BitVec 32 := 25#32
  let v3 : BitVec 1 := Scalar.cmpi .sge arg0 c25_i32_0
  let v4 : BitVec 32 := Scalar.extui v3
  let c0_i32_1 : BitVec 32 := 0#32
  let v5 : BitVec 1 := Scalar.cmpi .ne v4 c0_i32_1
  v5

def k0_off2 (i : grid0.Coords) : Fin 2 → Nat :=
  let arg0 : BitVec 32 := BitVec.ofNat 32 (i 0).val
  let c25_i32_2 : BitVec 32 := 25#32
  let v6 : BitVec 32 := Scalar.subi arg0 c25_i32_2
  let c400_i32 : BitVec 32 := 400#32
  let v11 : BitVec 32 := Scalar.muli v6 c400_i32
  let v12 : Index := Scalar.indexCast v11
  let c0_6 : Index := 0#32
  ![v12.toNat, 0]
def cc0_transform_0 (i : grid0.Coords) : Fin 2 → Nat :=
  let arg0 : BitVec 32 := BitVec.ofNat 32 (i 0).val
  let c25_i32 : BitVec 32 := 25#32
  let c0_i32 : BitVec 32 := 0#32
  let v0 : BitVec 1 := Scalar.cmpi .eq c25_i32 c0_i32
  let c1_i32 : BitVec 32 := 1#32
  let v1 : BitVec 32 := Scalar.select v0 c1_i32 c25_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c25_i32 : BitVec 32 := 25#32
  let c0_i32 : BitVec 32 := 0#32
  let v0 : BitVec 1 := Scalar.cmpi .eq c25_i32 c0_i32
  let c1_i32 : BitVec 32 := 1#32
  let v1 : BitVec 32 := Scalar.select v0 c1_i32 c25_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c25_i32 : BitVec 32 := 25#32
  let c0_i32 : BitVec 32 := 0#32
  let v0 : BitVec 1 := Scalar.cmpi .eq c25_i32 c0_i32
  let c1_i32 : BitVec 32 := 1#32
  let v1 : BitVec 32 := Scalar.select v0 c1_i32 c25_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S400x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  shapeCasts_S64_S1x64 : S64.ShapeCasts S1x64
  shapeCasts_S32_S1x32 : S32.ShapeCasts S1x32
  shapeCasts_S1_S1x1 : S1.ShapeCasts S1x1
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S400x128_S400x128_0_0 : ∀ a, (![0, 0] : Fin 2 → Nat) a + S400x128.size a ≤ S400x128.size a
  h_S400x128 : 0 < S400x128.numel
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  h_S400x64 : 0 < S400x64.numel
  shapeCasts_S400x64_S400x64 : S400x64.ShapeCasts S400x64
  inb_S10000x64_S10000x64_0_0 : ∀ a, (![0, 0] : Fin 2 → Nat) a + S10000x64.size a ≤ S10000x64.size a
  h_S10000x64 : 0 < S10000x64.numel
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S400x32 : S1x32.Broadcasts S400x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S400x1 : S1x1.Broadcasts S400x1
  inb_S400x1_S400x1_0_0 : ∀ a, (![0, 0] : Fin 2 → Nat) a + S400x1.size a ≤ S400x1.size a
  h_S400x1 : 0 < S400x1.numel
  dot_S400x10000_S10000x128_S400x128_1_0_0_1_n_n_wf : DotDims.WF S400x10000 S10000x128 S400x128 [1] [0] [0] [1] [] []
  dot_S400x128_S128x64_S400x64_1_0_0_1_n_n_wf : DotDims.WF S400x128 S128x64 S400x64 [1] [0] [0] [1] [] []
  dot_S400x10000_S10000x64_S400x64_1_0_0_1_n_n_wf : DotDims.WF S400x10000 S10000x64 S400x64 [1] [0] [0] [1] [] []
  dot_S400x64_S64x32_S400x32_1_0_0_1_n_n_wf : DotDims.WF S400x64 S64x32 S400x32 [1] [0] [0] [1] [] []
  dot_S400x32_S32x1_S400x1_1_0_0_1_n_n_wf : DotDims.WF S400x32 S32x1 S400x1 [1] [0] [0] [1] [] []
  hrank0 : 0 < grid0.rank
  k0_off1_inb : ∀ i : grid0.Coords, ∀ (k0_h1 : k0_cond1 i = 1#1), ∀ a, (k0_off1 i) a + S400x64.size a ≤ S10000x64.size a
  k0_off1_packedbf16 : ∀ i : grid0.Coords, ∀ (k0_h1 : k0_cond1 i = 1#1), (Rect.unit (s := S10000x64) (k0_off1 i) S400x64.size (k0_off1_inb i k0_h1)).PackedRows (EltTy.packing .bf16)
  k0_off2_inb : ∀ i : grid0.Coords, ∀ (k0_h2 : k0_cond2 i = 1#1), ∀ a, (k0_off2 i) a + S400x64.size a ≤ S10000x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .bf16 = 32 ∨ (Rect.block (s := S10000x128) S10000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x128.size a ≤ S10000x128.size a
  hwx0_2 : ∀ i : grid0.Coords, EltTy.bits .f32 = 32 ∨ (Rect.block (s := S10000x128) S400x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x32.size a ≤ S64x32.size a
  hwx0_6 : ∀ i : grid0.Coords, EltTy.bits .f32 = 32 ∨ (Rect.block (s := S64x32) S64x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x1.size a ≤ S32x1.size a
  hwx0_7 : ∀ i : grid0.Coords, EltTy.bits .f32 = 32 ∨ (Rect.block (s := S32x1) S32x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S400x1.size a ≤ S10000x1.size a
  hwx0_9 : ∀ i : grid0.Coords, EltTy.bits .f32 = 32 ∨ (Rect.block (s := S10000x1) S400x1.size (cc0_transform_9 i) (hinb0_9 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x64_S400x64_1_0_0_1_n_n : DotDims S400x128 S128x64 S400x64 where
  lhsContracting := [1]
  rhsContracting := [0]
  lhsNonContracting := [0]
  rhsNonContracting := [1]
  lhsBatch := []
  rhsBatch := []
  wf := dot_S400x128_S128x64_S400x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S64x32_S400x32_1_0_0_1_n_n : DotDims S400x64 S64x32 S400x32 where
  lhsContracting := [1]
  rhsContracting := [0]
  lhsNonContracting := [0]
  rhsNonContracting := [1]
  lhsBatch := []
  rhsBatch := []
  wf := dot_S400x64_S64x32_S400x32_1_0_0_1_n_n_wf
def dot_S400x32_S32x1_S400x1_1_0_0_1_n_n : DotDims S400x32 S32x1 S400x1 where
  lhsContracting := [1]
  rhsContracting := [0]
  lhsNonContracting := [0]
  rhsNonContracting := [1]
  lhsBatch := []
  rhsBatch := []
  wf := dot_S400x32_S32x1_S400x1_1_0_0_1_n_n_wf

abbrev win0_0 : Pipeline.Window sig grid0 :=
  Pipeline.Window.ofSpec (Memref.whole main_arg0) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S400x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S64x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S32x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S400x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | ⟨_ + 10, h⟩ => absurd h (Nat.not_lt.2 (Nat.le_add_left _ _))

class Facts : Prop extends Facts₀ where

variable [Facts]
-- ==== ReferenceIdeal.lean ====
abbrev S10000x10000 : Shape := ⟨2, ![10000, 10000]⟩
abbrev S10000x128 : Shape := ⟨2, ![10000, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩
abbrev S10000x64 : Shape := ⟨2, ![10000, 64]⟩
abbrev S1x64 : Shape := ⟨2, ![1, 64]⟩
abbrev S10000x32 : Shape := ⟨2, ![10000, 32]⟩
abbrev S1x32 : Shape := ⟨2, ![1, 32]⟩
abbrev S10000x1 : Shape := ⟨2, ![10000, 1]⟩
abbrev S1x1 : Shape := ⟨2, ![1, 1]⟩

abbrev nBuf : Space → Nat
  | .hbm => 36
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S10000x128, .f32⟩
  | .hbm, ⟨9, _⟩ => ⟨S_, .f32⟩
  | .hbm, ⟨10, _⟩ => ⟨S10000x128, .f32⟩
  | .hbm, ⟨11, _⟩ => ⟨S10000x128, .f32⟩
  | .hbm, ⟨12, _⟩ => ⟨S10000x128, .f32⟩
  | .hbm, ⟨13, _⟩ => ⟨S10000x64, .f32⟩
  | .hbm, ⟨14, _⟩ => ⟨S1x64, .f32⟩
  | .hbm, ⟨15, _⟩ => ⟨S10000x64, .f32⟩
  | .hbm, ⟨16, _⟩ => ⟨S10000x64, .f32⟩
  | .hbm, ⟨17, _⟩ => ⟨S_, .f32⟩
  | .hbm, ⟨18, _⟩ => ⟨S10000x64, .f32⟩
  | .hbm, ⟨19, _⟩ => ⟨S10000x64, .f32⟩
  | .hbm, ⟨20, _⟩ => ⟨S10000x64, .f32⟩
  | .hbm, ⟨21, _⟩ => ⟨S_, .f32⟩
  | .hbm, ⟨22, _⟩ => ⟨S10000x64, .f32⟩
  | .hbm, ⟨23, _⟩ => ⟨S10000x64, .f32⟩
  | .hbm, ⟨24, _⟩ => ⟨S10000x64, .f32⟩
  | .hbm, ⟨25, _⟩ => ⟨S10000x32, .f32⟩
  | .hbm, ⟨26, _⟩ => ⟨S1x32, .f32⟩
  | .hbm, ⟨27, _⟩ => ⟨S10000x32, .f32⟩
  | .hbm, ⟨28, _⟩ => ⟨S10000x32, .f32⟩
  | .hbm, ⟨29, _⟩ => ⟨S_, .f32⟩
  | .hbm, ⟨30, _⟩ => ⟨S10000x32, .f32⟩
  | .hbm, ⟨31, _⟩ => ⟨S10000x32, .f32⟩
  | .hbm, ⟨32, _⟩ => ⟨S10000x1, .f32⟩
  | .hbm, ⟨33, _⟩ => ⟨S1x1, .f32⟩
  | .hbm, ⟨34, _⟩ => ⟨S10000x1, .f32⟩
  | .hbm, ⟨35, _⟩ => ⟨S10000x1, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call0_cst : Ref sig .tc := ⟨.hbm, 17, rfl⟩
abbrev main_call0_v0 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call1_cst : Ref sig .tc := ⟨.hbm, 29, rfl⟩
abbrev main_call1_v0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  bcast_S_S10000x32 : S_.BroadcastsInDim S10000x32 (![] : Fin 0 → Fin S10000x32.rank)
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x32_S10000x32_1_0_0_1_n_n_wf : DotDims.WF S10000x64 S64x32 S10000x32 [1] [0] [0] [1] [] []
  dot_S10000x32_S32x1_S10000x1_1_0_0_1_n_n_wf : DotDims.WF S10000x32 S32x1 S10000x1 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x32_S32x1_S10000x1_1_0_0_1_n_n : DotDims S10000x32 S32x1 S10000x1 where
  lhsContracting := [1]
  rhsContracting := [0]
  lhsNonContracting := [0]
  rhsNonContracting := [1]
  lhsBatch := []
  rhsBatch := []
  wf := dot_S10000x32_S32x1_S10000x1_1_0_0_1_n_n_wf

class Facts : Prop extends Facts₀ where

variable [Facts]
-- ==== Proof.Bits.Points.lean ====
/-
  The schedule of the fused two-stage kernel, in closed form over its 50 grid points.

  Points 0 … 24 are STAGE 1: point `t` computes the hidden layer's rows `[400 t, 400 t + 400)` and keeps them in the
  two scratch arrays.  Points 25 … 49 are STAGE 2: point `t` computes output rows `[400 (t - 25), 400 (t - 25) + 400)`
  from the complete hidden layer.  Here: which stage a point is in, the row offsets each stage addresses the scratch
  arrays at, the staging memrefs the body is called on, and the region invariant opened into the two scratch arrays.
-/
import proofs.«130568_g9191230013956_cont_9to1_m_1205_10_alg».proof.Proof.Gen.Kernel.Frame
import proofs.«130568_g9191230013956_cont_9to1_m_1205_10_alg».proof.Proof.Gen.Kernel.Skeleton

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

/-! ## Which stage a point is in -/

/-- The first conditional's test holds exactly at the stage-1 points. -/
theorem stage1_iff : ∀ t : Fin cfg0.N, k0_cond1 (grid0.coords t) = 1#1 ↔ t.val < 25 :=
  (by decide +kernel : ∀ t : Fin grid0.N, k0_cond1 (grid0.coords t) = 1#1 ↔ t.val < 25)

/-- The second conditional's test holds exactly at the stage-2 points. -/
theorem stage2_iff : ∀ t : Fin cfg0.N, k0_cond2 (grid0.coords t) = 1#1 ↔ 25 ≤ t.val :=
  (by decide +kernel : ∀ t : Fin grid0.N, k0_cond2 (grid0.coords t) = 1#1 ↔ 25 ≤ t.val)

/-- The block of 400 rows a point works on: stage-1 point `t` writes hidden block `t`, stage-2 point `t` reads hidden
    block `t - 25` and writes output block `t - 25`; both are `t % 25`. -/
def blkOf (t : Fin cfg0.N) : Fin 25 := ⟨t.val % 25, Nat.mod_lt _ (by decide)⟩

/-- Stage-1 point `t` addresses the scratch arrays at the first row of its block. -/
theorem off1_eq : ∀ t : Fin cfg0.N, t.val < 25 → k0_off1 (grid0.coords t) = ![400 * (t.val % 25), 0] :=
  (by decide +kernel : ∀ t : Fin grid0.N, t.val < 25 → k0_off1 (grid0.coords t) = ![400 * (t.val % 25), 0])

/-- Stage-2 point `t` reads the f32 hidden rows from the first row of its block. -/
theorem off2_eq : ∀ t : Fin cfg0.N, 25 ≤ t.val → k0_off2 (grid0.coords t) = ![400 * (t.val % 25), 0] :=
  (by decide +kernel : ∀ t : Fin grid0.N, 25 ≤ t.val → k0_off2 (grid0.coords t) = ![400 * (t.val % 25), 0])

/-- The grid has 50 points. -/
theorem N_eq : cfg0.N = 50 := N_0

/-! ## The staging memrefs the body is called on, and the scratch arrays -/

abbrev ms0 (t : Fin cfg0.N) : Memref sig .tc .vmem S400x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S400x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x32 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S64x32 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S32x1 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x1 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S400x1 .f32 := win0_9.stage (cfg0.slots t 9)
abbrev hs9 (t : Fin cfg0.N) : (ms9 t).IsWhole := hstage0_9 ((cfg0.slots t 9).cast nbuf0_9)

/-- The hidden layer in f32 (the skip term's operand) and in bf16 (the contraction's operand). -/
abbrev scrF : Memref sig .tc .vmem S10000x64 .f32 := Memref.whole cc0_scratch0
abbrev scrB : Memref sig .tc .vmem S10000x64 .bf16 := Memref.whole cc0_scratch1

/-- The region's class invariant is the two scratch arrays, each at some contents, and the generator register. -/
theorem PhiA_eq (c : Dev nD) :
    (Pipeline.ΦA spec0 c : sProp 𝕄)
      = iprop(iprop((∃ d, owns (c : Thread nD τ) scrF fullShare d) ∗ (∃ d, owns (c : Thread nD τ) scrB fullShare d)) ∗ (∃ r, prngReg c r)) := by
  unfold Pipeline.ΦA; rw [scopedRest0_eq]; simp only [scrF, scrB, owns_whole]; try rfl

end Cert.Kernel.Hand

end
-- ==== Proof.RowBlocks.lean ====
/-
  Blocks of 400 rows of a `[10000, 64]` array: the array with one block replaced, one block read out, and the two
  ways a store or a load through the unit-stride rectangle of rows `[400 p, 400 p + 400)` is read as those.
-/
import Idealize.ShloMosaic.Lib.ValueIdx
import Idealize.ShloMosaic.Lib.WritesUnit
import Idealize.ShloMosaic.Lib.Pipeline.FrameBody
import Idealize.ShloMosaic.Lib.Exec.Geometry

namespace Cert.RowBlocks

open Idealize.ShloMosaic Idealize.ShloMosaic.ValueIdx

abbrev SBig : Shape := ⟨2, ![10000, 64]⟩
abbrev SBlk : Shape := ⟨2, ![400, 64]⟩

/-- The row of the big array that row `x` of block `p` is. -/
theorem row_lt (p : Fin 25) (x : Fin 400) : 400 * p.val + x.val < 10000 := by
  have := p.isLt; have := x.isLt; omega

/-- `S` with the 400 rows of block `p` replaced by `w`. -/
def putBlk {α : Type} (S : SBig.Idx → α) (p : Fin 25) (w : SBlk.Idx → α) : SBig.Idx → α :=
  fun y => if (y 0).val / 400 = p.val then w (ix2 (⟨(y 0).val % 400, Nat.mod_lt _ (by norm_num)⟩ : Fin 400) (y 1)) else S y

/-- The 400 rows of block `p` of `S`. -/
def getBlk {α : Type} (S : SBig.Idx → α) (p : Fin 25) : SBlk.Idx → α :=
  fun x => S (ix2 (⟨400 * p.val + (x 0).val, row_lt p (x 0)⟩ : Fin 10000) (x 1))

theorem putBlk_of_eq {α : Type} (S : SBig.Idx → α) (p : Fin 25) (w : SBlk.Idx → α) (y : SBig.Idx)
    (h : (y 0).val / 400 = p.val) :
    putBlk S p w y = w (ix2 (⟨(y 0).val % 400, Nat.mod_lt _ (by norm_num)⟩ : Fin 400) (y 1)) := by
  unfold putBlk; rw [if_pos h]

theorem putBlk_of_ne {α : Type} (S : SBig.Idx → α) (p : Fin 25) (w : SBlk.Idx → α) (y : SBig.Idx)
    (h : (y 0).val / 400 ≠ p.val) : putBlk S p w y = S y := by
  unfold putBlk; rw [if_neg h]

/-- Reading back the block just put. -/
theorem getBlk_putBlk {α : Type} (S : SBig.Idx → α) (p : Fin 25) (w : SBlk.Idx → α) : getBlk (putBlk S p w) p = w := by
  funext x
  unfold getBlk
  have hx : (x 0).val < 400 := (x 0).isLt
  rw [putBlk_of_eq _ _ _ _ (by show (400 * p.val + (x 0).val) / 400 = p.val; omega)]
  refine congrArg w ?_
  funext a; match a with
  | ⟨0, _⟩ => exact Fin.ext (by show (400 * p.val + (x 0).val) % 400 = (x 0).val; omega)
  | ⟨1, _⟩ => rfl

section Views

variable {sig : RefSig} {κ : Kind} {sp : Space} {e : EltTy} {Val : EltTy → Type}

/-- One store through the rectangle of block `p`'s rows leaves the array with that block replaced. -/
theorem read_writes_block (v : View sig κ sp SBig e) (f : v.ty.Contents Val) {off : Fin 2 → ℕ}
    (inb : ∀ a : Fin 2, off a + SBlk.size a ≤ SBig.size a)
    (w : (Rect.unit (s := SBig) off SBlk.size inb).shape.Idx → Val e) (p : Fin 25) (hoff : off = ![400 * p.val, 0]) :
    v.read Val (v.writes Val f [(⟨Rect.unit (s := SBig) off SBlk.size inb, w⟩ : View.Piece Val SBig e)])
      = putBlk (v.read Val f) p w := by
  funext y
  have hy : (y 0).val < 10000 := (y 0).isLt
  by_cases h : (y 0).val / 400 = p.val
  · rw [putBlk_of_eq _ _ _ _ h]
    exact View.read_writes_cons_rows_of_mem v f inb w [] y
      (ix2 (⟨(y 0).val % 400, Nat.mod_lt _ (by norm_num)⟩ : Fin 400) (y 1)) hoff
      (by show (y 0).val = 400 * p.val + (y 0).val % 400; omega) rfl
  · rw [putBlk_of_ne _ _ _ _ h]
    exact (View.read_writes_cons_rows_of_not_mem v f inb w [] y hoff (W := 400) rfl (by omega)).trans rfl

/-- One store through the whole-shape rectangle (offsets zero, however the zeros are spelt) reads back as its payload. -/
theorem read_writes_all {S : Shape} (v : View sig κ sp S e) (f : v.ty.Contents Val) {off : Fin S.rank → ℕ}
    (h : off = fun _ => 0) (inb : ∀ a, off a + S.size a ≤ S.size a) (w : S.Idx → Val e) :
    v.read Val (v.writes Val f [(⟨Rect.unit off S.size inb, w⟩ : View.Piece Val S e)]) = w := by
  subst h; exact View.read_writes_whole v f w

/-- A load through the rectangle of block `p`'s rows reads that block. -/
theorem ld_block (X : SBig.Idx → Val e) {off : Fin 2 → ℕ} (inb : ∀ a : Fin 2, off a + SBlk.size a ≤ SBig.size a)
    (p : Fin 25) (hoff : off = ![400 * p.val, 0]) :
    View.ld X (Rect.unit (s := SBig) off SBlk.size inb) = getBlk X p := by
  subst hoff
  funext x
  show X ((Rect.unit (s := SBig) ![400 * p.val, 0] SBlk.size inb).idx x) = _
  unfold getBlk
  refine congrArg X ?_
  funext a; match a with
  | ⟨0, _⟩ => exact Fin.ext (by show 400 * p.val + 1 * (x 0).val = 400 * p.val + (x 0).val; omega)
  | ⟨1, _⟩ => exact Fin.ext (by show 0 + 1 * (x 1).val = (x 1).val; omega)

end Views

end Cert.RowBlocks
-- ==== Proof.Bits.Data.lean ====
/-
  What the fused kernel computes, point by point, as functions of the arrays the region finds, and the proof data of its
  one pipeline.

  `hidF t`, `hidB t`: the hidden block stage-1 point `t` stores (f32, and truncated to bf16).  `HidF`, `HidB`: the
  complete hidden layer, row `r` being row `r % 400` of the block of point `r / 400`.  `Inv n`: the scratch arrays hold
  the hidden layer on the blocks below `n`.  `outBlk t`: the output block stage-2 point `t` stores, from the complete
  hidden layer.  The proof data say: every input's staging buffer is left as found; the output's staging buffer holds
  `outBlk t` after a stage-2 point and anything after a stage-1 point (the body does not touch it there, and what the
  pipeline then writes back is overwritten by the stage-2 point of the same block); between points the scratch arrays
  satisfy `Inv`.
-/
import proofs.«130568_g9191230013956_cont_9to1_m_1205_10_alg».proof.Proof.Bits.Points
import proofs.«130568_g9191230013956_cont_9to1_m_1205_10_alg».proof.Proof.RowBlocks

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

open Cert.RowBlocks Idealize.ShloMosaic.ValueIdx

variable (m : (ℓ : Loc nD τ sig) → Buf (Elt F) ℓ) (c : Dev nD)

/-! ## The hidden layer -/

/-- The hidden block of stage-1 point `t`, as stored in the f32 scratch. -/
def hidF (t : Fin cfg0.N) : Vec F S400x64 .f32 :=
  k0_pay2 (iblk m c 0 t) (iblk m c 1 t) (iblk m c 2 t) (iblk m c 4 t) (iblk m c 3 t)

/-- The same block as stored in the bf16 scratch. -/
def hidB (t : Fin cfg0.N) : Vec F S400x64 .bf16 :=
  k0_pay3 (iblk m c 0 t) (iblk m c 1 t) (iblk m c 2 t) (iblk m c 4 t) (iblk m c 3 t)

/-- The stage-1 point that computes hidden block `p`. -/
def pt1 (p : Fin 25) : Fin cfg0.N := ⟨p.val, by have := p.isLt; rw [N_eq]; omega⟩

theorem blk_lt (y : S10000x64.Idx) : (y 0).val / 400 < 25 := by
  have : (y 0).val < 10000 := (y 0).isLt
  omega

/-- The complete hidden layer, f32. -/
def HidF : Vec F S10000x64 .f32 := fun y =>
  hidF m c (pt1 ⟨(y 0).val / 400, blk_lt y⟩) (ix2 (⟨(y 0).val % 400, Nat.mod_lt _ (by decide)⟩ : Fin 400) (y 1))

/-- The complete hidden layer, bf16. -/
def HidB : Vec F S10000x64 .bf16 := fun y =>
  hidB m c (pt1 ⟨(y 0).val / 400, blk_lt y⟩) (ix2 (⟨(y 0).val % 400, Nat.mod_lt _ (by decide)⟩ : Fin 400) (y 1))

/-- The scratch arrays hold the hidden layer on the blocks below `n`. -/
def Inv (n : ℕ) (S0 : Vec F S10000x64 .f32) (S1 : Vec F S10000x64 .bf16) : Prop :=
  ∀ y : S10000x64.Idx, (y 0).val / 400 < n → S0 y = HidF m c y ∧ S1 y = HidB m c y

theorem inv_zero (S0 : Vec F S10000x64 .f32) (S1 : Vec F S10000x64 .bf16) : Inv m c 0 S0 S1 :=
  fun _ h => absurd h (Nat.not_lt_zero _)

/-- Storing hidden block `p` extends the invariant from the blocks below `p` to those below `p + 1`. -/
theorem inv_step (p : Fin 25) (S0 : Vec F S10000x64 .f32) (S1 : Vec F S10000x64 .bf16) (h : Inv m c p.val S0 S1) :
    Inv m c (p.val + 1) (putBlk S0 p (hidF m c (pt1 p))) (putBlk S1 p (hidB m c (pt1 p))) := by
  intro y hy
  by_cases e : (y 0).val / 400 = p.val
  · rw [putBlk_of_eq _ _ _ _ e, putBlk_of_eq _ _ _ _ e]
    have ep : (⟨(y 0).val / 400, blk_lt y⟩ : Fin 25) = p := Fin.ext e
    unfold HidF HidB; rw [ep]; exact ⟨rfl, rfl⟩
  · rw [putBlk_of_ne _ _ _ _ e, putBlk_of_ne _ _ _ _ e]
    exact h y (by omega)

/-- Once every block is stored the scratch arrays are the hidden layer. -/
theorem inv_full (S0 : Vec F S10000x64 .f32) (S1 : Vec F S10000x64 .bf16) (h : Inv m c 25 S0 S1) :
    S0 = HidF m c ∧ S1 = HidB m c :=
  ⟨funext fun y => (h y (blk_lt y)).1, funext fun y => (h y (blk_lt y)).2⟩

/-! ## The output block -/

/-- The output block stage-2 point `t` stores. -/
def outBlk (t : Fin cfg0.N) : Vec F S400x1 .f32 :=
  k0_pay4 (iblk m c 0 t) (HidB m c) (getBlk (HidF m c) (blkOf t)) (iblk m c 6 t) (iblk m c 5 t) (iblk m c 7 t) (iblk m c 8 t)

/-! ## The proof data -/

/-- Between points: the scratch arrays at contents satisfying the invariant (all 25 blocks from point 25 on), and the
    generator register at some state. -/
def Phi (n : Fin (cfg0.N + 1)) : sProp 𝕄 :=
  iprop(∃ (S0 : Vec F S10000x64 .f32) (S1 : Vec F S10000x64 .bf16), ⌜Inv m c (min n.val 25) S0 S1⌝
    ∗ owns (c : Thread nD τ) scrF fullShare S0 ∗ owns (c : Thread nD τ) scrB fullShare S1 ∗ (∃ r, prngReg c r))

/-- The relational proof data of the pipeline on core `c`. -/
def rdat : RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => X = Y
    | ⟨7, _⟩ => X = Y
    | ⟨8, _⟩ => X = Y
    | ⟨9, _⟩ => 25 ≤ t.val → X = outBlk m c t
  Φ n := Phi m c n
  q _ := fullShare
  owed _ := 0

theorem rdat_A (w : Fin cfg0.W) : (rdat m c).A w = V m c (Pipeline.arrRef spec0 w) := by dsimp only [rdat]

/-- What the relation says of the output's staging buffer. -/
theorem after9 (t : Fin cfg0.N) (Y X : (cfg0.win 9).block.Idx → Elt F (cfg0.win 9).elt) :
    (rdat m c).after 9 t Y X ↔ (25 ≤ t.val → X = outBlk m c t) := by dsimp only [rdat]; exact Iff.rfl

/-! ## What the body finds in the inputs' staging buffers: their blocks -/

theorem finds0 (t : Fin cfg0.N) (Y) (h : (rdat m c).Finds 0 t Y) : Y = iblk m c 0 t := by
  obtain ⟨d, rfl⟩ := (rdat m c).finds_in_eq_fetched 0 rfl (fun _ _ _ => rfl) (fun _ _ _ h => h) t Y h
  unfold RDat.fetched RDat.blockOf iblk; rfl
theorem finds1 (t : Fin cfg0.N) (Y) (h : (rdat m c).Finds 1 t Y) : Y = iblk m c 1 t := by
  obtain ⟨d, rfl⟩ := (rdat m c).finds_in_eq_fetched 1 rfl (fun _ _ _ => rfl) (fun _ _ _ h => h) t Y h
  unfold RDat.fetched RDat.blockOf iblk; rfl
theorem finds2 (t : Fin cfg0.N) (Y) (h : (rdat m c).Finds 2 t Y) : Y = iblk m c 2 t := by
  obtain ⟨d, rfl⟩ := (rdat m c).finds_in_eq_fetched 2 rfl (fun _ _ _ => rfl) (fun _ _ _ h => h) t Y h
  unfold RDat.fetched RDat.blockOf iblk; rfl
theorem finds3 (t : Fin cfg0.N) (Y) (h : (rdat m c).Finds 3 t Y) : Y = iblk m c 3 t := by
  obtain ⟨d, rfl⟩ := (rdat m c).finds_in_eq_fetched 3 rfl (fun _ _ _ => rfl) (fun _ _ _ h => h) t Y h
  unfold RDat.fetched RDat.blockOf iblk; rfl
theorem finds4 (t : Fin cfg0.N) (Y) (h : (rdat m c).Finds 4 t Y) : Y = iblk m c 4 t := by
  obtain ⟨d, rfl⟩ := (rdat m c).finds_in_eq_fetched 4 rfl (fun _ _ _ => rfl) (fun _ _ _ h => h) t Y h
  unfold RDat.fetched RDat.blockOf iblk; rfl
theorem finds5 (t : Fin cfg0.N) (Y) (h : (rdat m c).Finds 5 t Y) : Y = iblk m c 5 t := by
  obtain ⟨d, rfl⟩ := (rdat m c).finds_in_eq_fetched 5 rfl (fun _ _ _ => rfl) (fun _ _ _ h => h) t Y h
  unfold RDat.fetched RDat.blockOf iblk; rfl
theorem finds6 (t : Fin cfg0.N) (Y) (h : (rdat m c).Finds 6 t Y) : Y = iblk m c 6 t := by
  obtain ⟨d, rfl⟩ := (rdat m c).finds_in_eq_fetched 6 rfl (fun _ _ _ => rfl) (fun _ _ _ h => h) t Y h
  unfold RDat.fetched RDat.blockOf iblk; rfl
theorem finds7 (t : Fin cfg0.N) (Y) (h : (rdat m c).Finds 7 t Y) : Y = iblk m c 7 t := by
  obtain ⟨d, rfl⟩ := (rdat m c).finds_in_eq_fetched 7 rfl (fun _ _ _ => rfl) (fun _ _ _ h => h) t Y h
  unfold RDat.fetched RDat.blockOf iblk; rfl
theorem finds8 (t : Fin cfg0.N) (Y) (h : (rdat m c).Finds 8 t Y) : Y = iblk m c 8 t := by
  obtain ⟨d, rfl⟩ := (rdat m c).finds_in_eq_fetched 8 rfl (fun _ _ _ => rfl) (fun _ _ _ h => h) t Y h
  unfold RDat.fetched RDat.blockOf iblk; rfl

end Cert.Kernel.Hand

end
-- ==== Proof.Bits.Stage1.lean ====
/-
  STAGE 1 of the body, at a point `t < 25`: from the adjacency block `a`, the features `x` (bf16 copy and f32 block), the
  first layer's weights and bias it computes the hidden block `relu ((a · x − 3 · x_blk) · W1 + b1)` and stores it into
  rows `[400 p, 400 p + 400)` of both scratch arrays (f32, and truncated to bf16); the output's staging buffer and every
  input are left as found.  The values it loads from the scratch rows before storing are never used.
-/
import proofs.«130568_g9191230013956_cont_9to1_m_1205_10_alg».proof.Proof.Bits.Points
import proofs.«130568_g9191230013956_cont_9to1_m_1205_10_alg».proof.Proof.RowBlocks
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

open Cert.RowBlocks

theorem zero2 : (![0, 0] : Fin 2 → ℕ) = fun _ => 0 := by
  funext a; match a with | ⟨0, _⟩ => rfl | ⟨1, _⟩ => rfl

set_option maxHeartbeats 1600000 in
/-- The body on whole staging memrefs at a stage-1 point whose scratch offset is row `400 p`: every buffer but the two
    scratch arrays is handed back as found, and each scratch array has block `p` replaced by the hidden block. -/
theorem stage1_run (c : Dev nD) (i : grid0.Coords) (arg1 : Memref sig .tc .vmem S400x10000 .f32) (harg1 : arg1.IsWhole) (arg2 : Memref sig .tc .vmem S10000x128 .bf16) (harg2 : arg2.IsWhole) (arg3 : Memref sig .tc .vmem S400x128 .f32) (harg3 : arg3.IsWhole) (arg4 : Memref sig .tc .vmem S1x64 .f32) (harg4 : arg4.IsWhole) (arg5 : Memref sig .tc .vmem S128x64 .f32) (harg5 : arg5.IsWhole) (arg6 : Memref sig .tc .vmem S1x32 .f32) (harg6 : arg6.IsWhole) (arg7 : Memref sig .tc .vmem S64x32 .f32) (harg7 : arg7.IsWhole) (arg8 : Memref sig .tc .vmem S32x1 .f32) (harg8 : arg8.IsWhole) (arg9 : Memref sig .tc .vmem S1x1 .f32) (harg9 : arg9.IsWhole) (arg10 : Memref sig .tc .vmem S400x1 .f32) (harg10 : arg10.IsWhole) (arg11 : Memref sig .tc .vmem S10000x64 .f32) (harg11 : arg11.IsWhole) (arg12 : Memref sig .tc .vmem S10000x64 .bf16) (harg12 : arg12.IsWhole) (hc0 : k0_cond1 i = 1#1) (hc1 : ¬ k0_cond2 i = 1#1)
    (p : Fin 25) (hoff : k0_off1 i = ![400 * p.val, 0])
    (x0 : Vec F S400x10000 .f32) (x1 : Vec F S10000x128 .bf16) (x2 : Vec F S400x128 .f32) (x3 : Vec F S1x64 .f32) (x4 : Vec F S128x64 .f32) (x5 : Vec F S1x32 .f32) (x6 : Vec F S64x32 .f32) (x7 : Vec F S32x1 .f32) (x8 : Vec F S1x1 .f32)
    (d9 : Vec F S400x1 .f32) (s0 : Vec F S10000x64 .f32) (s1 : Vec F S10000x64 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare d9 ∗ owns (c : Thread nD τ) arg11 fullShare s0 ∗ owns (c : Thread nD τ) arg12 fullShare s1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare d9
                ∗ owns (c : Thread nD τ) arg11 fullShare (putBlk s0 p (k0_pay2 x0 x1 x2 x4 x3))
                ∗ owns (c : Thread nD τ) arg12 fullShare (putBlk s1 p (k0_pay3 x0 x1 x2 x4 x3))) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12) K := by
    intro E K
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hfs0; obtain rfl := harg12.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [HS0]
    · iexists _; isplitr; swap; · iexact HS0
      ipureintro
      rw [read_writes_block _ _ _ _ p hoff, harg11.read_unread]
      simp only [View.readAt_eq_ld, Memref.IsWhole.read_unread, View.ld_unit_zero (S := S400x10000) zero2, View.ld_unit_zero (S := S10000x128) zero2, View.ld_unit_zero (S := S400x128) zero2, View.ld_unit_zero (S := S128x64) zero2, View.ld_unit_zero (S := S1x64) zero2]
    iexists _; isplitr; swap; · iexact HS1
    ipureintro
    rw [read_writes_block _ _ _ _ p hoff, harg12.read_unread]
    simp only [View.readAt_eq_ld, Memref.IsWhole.read_unread, View.ld_unit_zero (S := S400x10000) zero2, View.ld_unit_zero (S := S10000x128) zero2, View.ld_unit_zero (S := S400x128) zero2, View.ld_unit_zero (S := S128x64) zero2, View.ld_unit_zero (S := S1x64) zero2]

end Cert.Kernel.Hand

end
-- ==== Proof.Bits.Stage2.lean ====
/-
  STAGE 2 of the body, at a point `t ≥ 25`: from the adjacency block `a`, the complete hidden layer `h` (bf16 scratch,
  whole; f32 scratch, rows `[400 p, 400 p + 400)`), and the last two layers' weights and biases it computes the output
  block `relu ((a · h − 2 · h_blk) · W2 + b2) · W3 + b3` and stores it over the whole output staging buffer; every
  input and both scratch arrays are left as found.  The value it loads from the output buffer before storing is never
  used.
-/
import proofs.«130568_g9191230013956_cont_9to1_m_1205_10_alg».proof.Proof.Bits.Points
import proofs.«130568_g9191230013956_cont_9to1_m_1205_10_alg».proof.Proof.RowBlocks
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

open Cert.RowBlocks

theorem zero2' : (![0, 0] : Fin 2 → ℕ) = fun _ => 0 := by
  funext a; match a with | ⟨0, _⟩ => rfl | ⟨1, _⟩ => rfl

set_option maxHeartbeats 1600000 in
/-- The body on whole staging memrefs at a stage-2 point that reads the f32 hidden rows from row `400 p`: the output's
    staging buffer ends at the output block, everything else as found. -/
theorem stage2_run (c : Dev nD) (i : grid0.Coords) (arg1 : Memref sig .tc .vmem S400x10000 .f32) (harg1 : arg1.IsWhole) (arg2 : Memref sig .tc .vmem S10000x128 .bf16) (harg2 : arg2.IsWhole) (arg3 : Memref sig .tc .vmem S400x128 .f32) (harg3 : arg3.IsWhole) (arg4 : Memref sig .tc .vmem S1x64 .f32) (harg4 : arg4.IsWhole) (arg5 : Memref sig .tc .vmem S128x64 .f32) (harg5 : arg5.IsWhole) (arg6 : Memref sig .tc .vmem S1x32 .f32) (harg6 : arg6.IsWhole) (arg7 : Memref sig .tc .vmem S64x32 .f32) (harg7 : arg7.IsWhole) (arg8 : Memref sig .tc .vmem S32x1 .f32) (harg8 : arg8.IsWhole) (arg9 : Memref sig .tc .vmem S1x1 .f32) (harg9 : arg9.IsWhole) (arg10 : Memref sig .tc .vmem S400x1 .f32) (harg10 : arg10.IsWhole) (arg11 : Memref sig .tc .vmem S10000x64 .f32) (harg11 : arg11.IsWhole) (arg12 : Memref sig .tc .vmem S10000x64 .bf16) (harg12 : arg12.IsWhole) (hc0 : ¬ k0_cond1 i = 1#1) (hc1 : k0_cond2 i = 1#1)
    (p : Fin 25) (hoff : k0_off2 i = ![400 * p.val, 0])
    (x0 : Vec F S400x10000 .f32) (x1 : Vec F S10000x128 .bf16) (x2 : Vec F S400x128 .f32) (x3 : Vec F S1x64 .f32) (x4 : Vec F S128x64 .f32) (x5 : Vec F S1x32 .f32) (x6 : Vec F S64x32 .f32) (x7 : Vec F S32x1 .f32) (x8 : Vec F S1x1 .f32)
    (d9 : Vec F S400x1 .f32) (s0 : Vec F S10000x64 .f32) (s1 : Vec F S10000x64 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare d9 ∗ owns (c : Thread nD τ) arg11 fullShare s0 ∗ owns (c : Thread nD τ) arg12 fullShare s1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
                ∗ owns (c : Thread nD τ) arg10 fullShare (k0_pay4 x0 s1 (getBlk s0 p) x6 x5 x7 x8)
                ∗ owns (c : Thread nD τ) arg11 fullShare s0
                ∗ owns (c : Thread nD τ) arg12 fullShare s1) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12) K := by
    intro E K
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hfs0; obtain rfl := harg12.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; swap; · iexact H9
      ipureintro
      rw [read_writes_all (S := S400x1) _ _ zero2' _ _]
      simp only [View.readAt_eq_ld, Memref.IsWhole.read_unread, View.ld_unit_zero (S := S400x10000) zero2', View.ld_unit_zero (S := S10000x64) zero2', View.ld_unit_zero (S := S64x32) zero2', View.ld_unit_zero (S := S1x32) zero2', View.ld_unit_zero (S := S32x1) zero2', View.ld_unit_zero (S := S1x1) zero2']
      rw [ld_block s0 _ p hoff]
    isplitl [HS0]
    · iexists _; isplitr; · ipureintro; exact harg11.read_unread _
      iexact HS0
    iexists _; isplitr; · ipureintro; exact harg12.read_unread _
    iexact HS1

end Cert.Kernel.Hand

end
-- ==== Proof.Bits.Body.lean ====
/-
  The body obligation: at every point, from the scratch invariant and the staging buffers at what the pipeline hands
  over, the kernel's body runs to the invariant at the next point and the buffers at contents the proof data allow.
  A stage-1 point stores its hidden block, which extends the invariant by one block, and leaves the output's buffer
  alone; a stage-2 point finds the hidden layer complete, so what it stores into the output's buffer is `outBlk`.
-/
import proofs.«130568_g9191230013956_cont_9to1_m_1205_10_alg».proof.Proof.Bits.Data
import proofs.«130568_g9191230013956_cont_9to1_m_1205_10_alg».proof.Proof.Bits.Stage1
import proofs.«130568_g9191230013956_cont_9to1_m_1205_10_alg».proof.Proof.Bits.Stage2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

open Cert.RowBlocks

variable (m : (ℓ : Loc nD τ sig) → Buf (Elt F) ℓ) (c : Dev nD)

/-- What the body is called with at point `t`, the windows one by one. -/
def bodyPre (t : Fin cfg0.N) (Y : (w : Fin cfg0.W) → (cfg0.win w).block.Idx → Elt F (cfg0.win w).elt) : sProp 𝕄 :=
  iprop((rdat m c).Φ t.castSucc ∗ (rdat m c).owesAt () t.castSucc
    ∗ owns (c : Thread nD τ) (ms0 t) fullShare (Y 0)
    ∗ owns (c : Thread nD τ) (ms1 t) fullShare (Y 1)
    ∗ owns (c : Thread nD τ) (ms2 t) fullShare (Y 2)
    ∗ owns (c : Thread nD τ) (ms3 t) fullShare (Y 3)
    ∗ owns (c : Thread nD τ) (ms4 t) fullShare (Y 4)
    ∗ owns (c : Thread nD τ) (ms5 t) fullShare (Y 5)
    ∗ owns (c : Thread nD τ) (ms6 t) fullShare (Y 6)
    ∗ owns (c : Thread nD τ) (ms7 t) fullShare (Y 7)
    ∗ owns (c : Thread nD τ) (ms8 t) fullShare (Y 8)
    ∗ owns (c : Thread nD τ) (ms9 t) fullShare (Y 9))

/-- What it returns. -/
def bodyPost (t : Fin cfg0.N) (Y : (w : Fin cfg0.W) → (cfg0.win w).block.Idx → Elt F (cfg0.win w).elt) : sProp 𝕄 :=
  iprop((rdat m c).Φ t.succ ∗ (rdat m c).owesAt () t.succ
    ∗ (∃ X, ⌜(rdat m c).after 0 t (Y 0) X⌝ ∗ owns (c : Thread nD τ) (ms0 t) fullShare X)
    ∗ (∃ X, ⌜(rdat m c).after 1 t (Y 1) X⌝ ∗ owns (c : Thread nD τ) (ms1 t) fullShare X)
    ∗ (∃ X, ⌜(rdat m c).after 2 t (Y 2) X⌝ ∗ owns (c : Thread nD τ) (ms2 t) fullShare X)
    ∗ (∃ X, ⌜(rdat m c).after 3 t (Y 3) X⌝ ∗ owns (c : Thread nD τ) (ms3 t) fullShare X)
    ∗ (∃ X, ⌜(rdat m c).after 4 t (Y 4) X⌝ ∗ owns (c : Thread nD τ) (ms4 t) fullShare X)
    ∗ (∃ X, ⌜(rdat m c).after 5 t (Y 5) X⌝ ∗ owns (c : Thread nD τ) (ms5 t) fullShare X)
    ∗ (∃ X, ⌜(rdat m c).after 6 t (Y 6) X⌝ ∗ owns (c : Thread nD τ) (ms6 t) fullShare X)
    ∗ (∃ X, ⌜(rdat m c).after 7 t (Y 7) X⌝ ∗ owns (c : Thread nD τ) (ms7 t) fullShare X)
    ∗ (∃ X, ⌜(rdat m c).after 8 t (Y 8) X⌝ ∗ owns (c : Thread nD τ) (ms8 t) fullShare X)
    ∗ (∃ X, ⌜(rdat m c).after 9 t (Y 9) X⌝ ∗ owns (c : Thread nD τ) (ms9 t) fullShare X))

theorem blkOf_val (t : Fin cfg0.N) : (blkOf t).val = t.val % 25 := rfl

set_option maxHeartbeats 2400000 in
theorem sound_body (t : Fin cfg0.N) (Y : (w : Fin cfg0.W) → (cfg0.win w).block.Idx → Elt F (cfg0.win w).elt)
    (hY : ∀ w, (rdat m c).Finds w t (Y w)) :
    bodyPre m c t Y ⊢ wp frame (wpE (defs₀ (F := F)) Variants.none c none) Set.univ (bodyAt0 t) (fun _ => bodyPost m c t Y) := by
  have e0 := finds0 m c t (Y 0) (hY 0)
  have e1 := finds1 m c t (Y 1) (hY 1)
  have e2 := finds2 m c t (Y 2) (hY 2)
  have e3 := finds3 m c t (Y 3) (hY 3)
  have e4 := finds4 m c t (Y 4) (hY 4)
  have e5 := finds5 m c t (Y 5) (hY 5)
  have e6 := finds6 m c t (Y 6) (hY 6)
  have e7 := finds7 m c t (Y 7) (hY 7)
  have e8 := finds8 m c t (Y 8) (hY 8)
  have hN : t.val < 50 := lt_of_lt_of_eq t.isLt N_eq
  unfold bodyPre bodyPost bodyAt0
  rw [show (rdat m c).owesAt () t.succ = (rdat m c).owesAt () t.castSucc from rfl]
  rw [show (rdat m c).Φ t.castSucc = Phi m c t.castSucc from rfl, show (rdat m c).Φ t.succ = Phi m c t.succ from rfl]
  unfold Phi
  rw [Fin.coe_castSucc, Fin.val_succ]
  by_cases h : t.val < 25
  · -- stage 1: hidden block `t` is stored
    have ept : pt1 (blkOf t) = t := Fin.ext (by show t.val % 25 = t.val; omega)
    iintro ⟨⟨%S0, %S1, %hI, HS0, HS1, Hg⟩, Ho, H0, H1, H2, H3, H4, H5, H6, H7, H8, H9⟩
    iapply (stage1_run c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scrF (Memref.isWhole_whole _) scrB (Memref.isWhole_whole _)
      ((stage1_iff t).mpr h) (fun h' => absurd ((stage2_iff t).mp h') (by omega)) (blkOf t) (off1_eq t h)
      (Y 0) (Y 1) (Y 2) (Y 3) (Y 4) (Y 5) (Y 6) (Y 7) (Y 8) (Y 9) S0 S1 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    iintro ⟨H0, H1, H2, H3, H4, H5, H6, H7, H8, H9, HS0, HS1⟩
    isplitl [HS0 HS1 Hg]
    · iexists _, _; isplitr; swap
      · isplitl [HS0]; · iexact HS0
        isplitl [HS1]; · iexact HS1
        iexact Hg
      ipureintro
      have hs := inv_step m c (blkOf t) S0 S1 (by rw [blkOf_val, show t.val % 25 = t.val from by omega]; rwa [show min t.val 25 = t.val from by omega] at hI)
      rw [ept, blkOf_val, show t.val % 25 = t.val from by omega] at hs
      rw [show min (t.val + 1) 25 = t.val + 1 from by omega, e0, e1, e2, e3, e4]
      exact hs
    isplitl [Ho]; · iexact Ho
    isplitl [H0]
    · iexists (Y 0); isplitr; · ipureintro; exact rfl
      iexact H0
    isplitl [H1]
    · iexists (Y 1); isplitr; · ipureintro; exact rfl
      iexact H1
    isplitl [H2]
    · iexists (Y 2); isplitr; · ipureintro; exact rfl
      iexact H2
    isplitl [H3]
    · iexists (Y 3); isplitr; · ipureintro; exact rfl
      iexact H3
    isplitl [H4]
    · iexists (Y 4); isplitr; · ipureintro; exact rfl
      iexact H4
    isplitl [H5]
    · iexists (Y 5); isplitr; · ipureintro; exact rfl
      iexact H5
    isplitl [H6]
    · iexists (Y 6); isplitr; · ipureintro; exact rfl
      iexact H6
    isplitl [H7]
    · iexists (Y 7); isplitr; · ipureintro; exact rfl
      iexact H7
    isplitl [H8]
    · iexists (Y 8); isplitr; · ipureintro; exact rfl
      iexact H8
    iexists (Y 9); isplitr; swap; · iexact H9
    ipureintro; rw [after9]; intro h25; omega
  · -- stage 2: the hidden layer is complete
    have h25 : 25 ≤ t.val := by omega
    iintro ⟨⟨%S0, %S1, %hI, HS0, HS1, Hg⟩, Ho, H0, H1, H2, H3, H4, H5, H6, H7, H8, H9⟩
    rw [show min t.val 25 = 25 from by omega] at hI
    obtain ⟨rfl, rfl⟩ := inv_full m c S0 S1 hI
    iapply (stage2_run c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scrF (Memref.isWhole_whole _) scrB (Memref.isWhole_whole _)
      (fun h' => h ((stage1_iff t).mp h')) ((stage2_iff t).mpr h25) (blkOf t) (off2_eq t h25)
      (Y 0) (Y 1) (Y 2) (Y 3) (Y 4) (Y 5) (Y 6) (Y 7) (Y 8) (Y 9) (HidF m c) (HidB m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    iintro ⟨H0, H1, H2, H3, H4, H5, H6, H7, H8, H9, HS0, HS1⟩
    isplitl [HS0 HS1 Hg]
    · iexists _, _; isplitr; swap
      · isplitl [HS0]; · iexact HS0
        isplitl [HS1]; · iexact HS1
        iexact Hg
      ipureintro
      rw [show min (t.val + 1) 25 = 25 from by omega]
      exact fun y _ => ⟨rfl, rfl⟩
    isplitl [Ho]; · iexact Ho
    isplitl [H0]
    · iexists (Y 0); isplitr; · ipureintro; exact rfl
      iexact H0
    isplitl [H1]
    · iexists (Y 1); isplitr; · ipureintro; exact rfl
      iexact H1
    isplitl [H2]
    · iexists (Y 2); isplitr; · ipureintro; exact rfl
      iexact H2
    isplitl [H3]
    · iexists (Y 3); isplitr; · ipureintro; exact rfl
      iexact H3
    isplitl [H4]
    · iexists (Y 4); isplitr; · ipureintro; exact rfl
      iexact H4
    isplitl [H5]
    · iexists (Y 5); isplitr; · ipureintro; exact rfl
      iexact H5
    isplitl [H6]
    · iexists (Y 6); isplitr; · ipureintro; exact rfl
      iexact H6
    isplitl [H7]
    · iexists (Y 7); isplitr; · ipureintro; exact rfl
      iexact H7
    isplitl [H8]
    · iexists (Y 8); isplitr; · ipureintro; exact rfl
      iexact H8
    iexists _; isplitr; swap; · iexact H9
    ipureintro; rw [after9]; intro _
    rw [e0, e5, e6, e7, e8]; rfl

/-- The library's body obligation, at every point. -/
theorem body_obligation : (rdat m c).BodyObligation (defs₀ (F := F)) Variants.none () Set.univ := fun t Y hY => by
  rw [bigSep_W0, bigSep_W0]
  exact sound_body m c t Y hY

end Cert.Kernel.Hand

end
-- ==== Proof.Bits.Launch.lean ====
/-
  The launch: the scratch invariant starts and ends inside the region's class invariant (at the start nothing is asked
  of the scratch arrays, at the end their contents are forgotten), so the library's frame run applies; its post gives
  every argument array unchanged — a staged one because an input window's array is never written, an unstaged one
  because it bypasses the region.
-/
import proofs.«130568_g9191230013956_cont_9to1_m_1205_10_alg».proof.Proof.Bits.Body

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem phi_in (c : Dev nD) : (Pipeline.ΦA spec0 c : sProp 𝕄) ⊢ (rdat m c).Φ 0 := by
  rw [PhiA_eq]
  show _ ⊢ Phi m c 0
  unfold Phi
  iintro ⟨⟨⟨%d0, H0⟩, ⟨%d1, H1⟩⟩, Hg⟩
  iexists d0, d1
  isplitr; · ipureintro; exact inv_zero m c d0 d1
  isplitl [H0]; · iexact H0
  isplitl [H1]; · iexact H1
  iexact Hg

theorem phi_out (c : Dev nD) : (rdat m c).Φ (Fin.last cfg0.N) ⊢ (Pipeline.ΦA spec0 c : sProp 𝕄) := by
  rw [PhiA_eq]
  show Phi m c (Fin.last cfg0.N) ⊢ _
  unfold Phi
  iintro ⟨%S0, %S1, -, H0, H1, Hg⟩
  isplitl [H0 H1]
  · isplitl [H0]; · iexists S0; iexact H0
    iexists S1; iexact H1
  iexact Hg

set_option backward.isDefEq.respectTransparency.types false in
/-- Every weakly fair execution of @main terminates; every array of the pipeline then holds contents the proof data
    allow after every write-back, and every other unscoped buffer what it held when the region was entered. -/
theorem run_main : θ_run defs (onTc (τ := τ) (main (F := F))) (s₀ m ρ)
    (Pipeline.RDat.FramePost (cfgs 0) (fun c => rdat m c) (V m)) :=
  Pipeline.RDat.θ_run_frame_track cfgs (0 : Fin 1) launch0 defs₀ Variants.none (fun c => rdat m c) m ρ main
    (hbody := fun c => body_obligation m c) (hshare := fun c w => by unfold RDat.share; split <;> rfl)
    (howed := fun _ _ => rfl) (V := V m) (hmain := hmain m Variants.none) (hA := fun c w => rdat_A m c w)
    (hin := fun c => phi_in m c) (hout := fun c => phi_out m c)

/-- The frame: the run terminates without a fault and leaves every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(Pipeline.RDat.FramePost.arr_in h c 0 rfl).trans ((rdat_A m c 0).trans (V_main_arg0 m c)),
      (Pipeline.RDat.FramePost.arr_in h c 2 rfl).trans ((rdat_A m c 2).trans (V_main_arg1 m c)),
      (Pipeline.RDat.FramePost.arr_in h c 4 rfl).trans ((rdat_A m c 4).trans (V_main_arg2 m c)),
      ((h c).2 main_arg3 (Pipeline.mem_restRefs_of main_arg3 (by decide) (by decide))).trans (V_main_arg3 m c),
      (Pipeline.RDat.FramePost.arr_in h c 6 rfl).trans ((rdat_A m c 6).trans (V_main_arg4 m c)),
      ((h c).2 main_arg5 (Pipeline.mem_restRefs_of main_arg5 (by decide) (by decide))).trans (V_main_arg5 m c),
      (Pipeline.RDat.FramePost.arr_in h c 7 rfl).trans ((rdat_A m c 7).trans (V_main_arg6 m c)),
      ((h c).2 main_arg7 (Pipeline.mem_restRefs_of main_arg7 (by decide) (by decide))).trans (V_main_arg7 m c)⟩) (run_main m ρ)

end Cert.Kernel.Hand

end
-- ==== Proof.Ideal.Points.lean ====
/-
  The schedule of the fused two-stage kernel, in closed form over its 50 grid points.

  Points 0 … 24 are STAGE 1: point `t` computes the hidden layer's rows `[400 t, 400 t + 400)` and keeps them in the
  two scratch arrays.  Points 25 … 49 are STAGE 2: point `t` computes output rows `[400 (t - 25), 400 (t - 25) + 400)`
  from the complete hidden layer.  Here: which stage a point is in, the row offsets each stage addresses the scratch
  arrays at, the staging memrefs the body is called on, and the region invariant opened into the two scratch arrays.
-/
import proofs.«130568_g9191230013956_cont_9to1_m_1205_10_alg».proof.Proof.Gen.KernelIdeal.Frame
import proofs.«130568_g9191230013956_cont_9to1_m_1205_10_alg».proof.Proof.Gen.KernelIdeal.Skeleton

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

/-! ## Which stage a point is in -/

/-- The first conditional's test holds exactly at the stage-1 points. -/
theorem stage1_iff : ∀ t : Fin cfg0.N, k0_cond1 (grid0.coords t) = 1#1 ↔ t.val < 25 :=
  (by decide +kernel : ∀ t : Fin grid0.N, k0_cond1 (grid0.coords t) = 1#1 ↔ t.val < 25)

/-- The second conditional's test holds exactly at the stage-2 points. -/
theorem stage2_iff : ∀ t : Fin cfg0.N, k0_cond2 (grid0.coords t) = 1#1 ↔ 25 ≤ t.val :=
  (by decide +kernel : ∀ t : Fin grid0.N, k0_cond2 (grid0.coords t) = 1#1 ↔ 25 ≤ t.val)

/-- The block of 400 rows a point works on: stage-1 point `t` writes hidden block `t`, stage-2 point `t` reads hidden
    block `t - 25` and writes output block `t - 25`; both are `t % 25`. -/
def blkOf (t : Fin cfg0.N) : Fin 25 := ⟨t.val % 25, Nat.mod_lt _ (by decide)⟩

/-- Stage-1 point `t` addresses the scratch arrays at the first row of its block. -/
theorem off1_eq : ∀ t : Fin cfg0.N, t.val < 25 → k0_off1 (grid0.coords t) = ![400 * (t.val % 25), 0] :=
  (by decide +kernel : ∀ t : Fin grid0.N, t.val < 25 → k0_off1 (grid0.coords t) = ![400 * (t.val % 25), 0])

/-- Stage-2 point `t` reads the f32 hidden rows from the first row of its block. -/
theorem off2_eq : ∀ t : Fin cfg0.N, 25 ≤ t.val → k0_off2 (grid0.coords t) = ![400 * (t.val % 25), 0] :=
  (by decide +kernel : ∀ t : Fin grid0.N, 25 ≤ t.val → k0_off2 (grid0.coords t) = ![400 * (t.val % 25), 0])

/-- The grid has 50 points. -/
theorem N_eq : cfg0.N = 50 := N_0

/-! ## The staging memrefs the body is called on, and the scratch arrays -/

abbrev ms0 (t : Fin cfg0.N) : Memref sig .tc .vmem S400x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S400x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x32 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S64x32 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S32x1 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x1 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S400x1 .f32 := win0_9.stage (cfg0.slots t 9)
abbrev hs9 (t : Fin cfg0.N) : (ms9 t).IsWhole := hstage0_9 ((cfg0.slots t 9).cast nbuf0_9)

/-- The hidden layer in f32 (the skip term's operand) and in bf16 (the contraction's operand). -/
abbrev scrF : Memref sig .tc .vmem S10000x64 .f32 := Memref.whole cc0_scratch0
abbrev scrB : Memref sig .tc .vmem S10000x64 .bf16 := Memref.whole cc0_scratch1

/-- The region's class invariant is the two scratch arrays, each at some contents, and the generator register. -/
theorem PhiA_eq (c : Dev nD) :
    (Pipeline.ΦA spec0 c : sProp 𝕄)
      = iprop(iprop((∃ d, owns (c : Thread nD τ) scrF fullShare d) ∗ (∃ d, owns (c : Thread nD τ) scrB fullShare d)) ∗ (∃ r, prngReg c r)) := by
  unfold Pipeline.ΦA; rw [scopedRest0_eq]; simp only [scrF, scrB, owns_whole]; try rfl

end Cert.KernelIdeal.Hand

end
-- ==== Proof.Ideal.Data.lean ====
/-
  What the fused kernel computes, point by point, as functions of the arrays the region finds, and the proof data of its
  one pipeline.

  `hidF t`, `hidB t`: the hidden block stage-1 point `t` stores (f32, and truncated to bf16).  `HidF`, `HidB`: the
  complete hidden layer, row `r` being row `r % 400` of the block of point `r / 400`.  `Inv n`: the scratch arrays hold
  the hidden layer on the blocks below `n`.  `outBlk t`: the output block stage-2 point `t` stores, from the complete
  hidden layer.  The proof data say: every input's staging buffer is left as found; the output's staging buffer holds
  `outBlk t` after a stage-2 point and anything after a stage-1 point (the body does not touch it there, and what the
  pipeline then writes back is overwritten by the stage-2 point of the same block); between points the scratch arrays
  satisfy `Inv`.
-/
import proofs.«130568_g9191230013956_cont_9to1_m_1205_10_alg».proof.Proof.Ideal.Points
import proofs.«130568_g9191230013956_cont_9to1_m_1205_10_alg».proof.Proof.RowBlocks

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

open Cert.RowBlocks Idealize.ShloMosaic.ValueIdx

variable (m : (ℓ : Loc nD τ sig) → Buf (Elt F) ℓ) (c : Dev nD)

/-! ## The hidden layer -/

/-- The hidden block of stage-1 point `t`, as stored in the f32 scratch. -/
def hidF (t : Fin cfg0.N) : Vec F S400x64 .f32 :=
  k0_pay2 (iblk m c 0 t) (iblk m c 1 t) (iblk m c 2 t) (iblk m c 4 t) (iblk m c 3 t)

/-- The same block as stored in the bf16 scratch. -/
def hidB (t : Fin cfg0.N) : Vec F S400x64 .bf16 :=
  k0_pay3 (iblk m c 0 t) (iblk m c 1 t) (iblk m c 2 t) (iblk m c 4 t) (iblk m c 3 t)

/-- The stage-1 point that computes hidden block `p`. -/
def pt1 (p : Fin 25) : Fin cfg0.N := ⟨p.val, by have := p.isLt; rw [N_eq]; omega⟩

theorem blk_lt (y : S10000x64.Idx) : (y 0).val / 400 < 25 := by
  have : (y 0).val < 10000 := (y 0).isLt
  omega

/-- The complete hidden layer, f32. -/
def HidF : Vec F S10000x64 .f32 := fun y =>
  hidF m c (pt1 ⟨(y 0).val / 400, blk_lt y⟩) (ix2 (⟨(y 0).val % 400, Nat.mod_lt _ (by decide)⟩ : Fin 400) (y 1))

/-- The complete hidden layer, bf16. -/
def HidB : Vec F S10000x64 .bf16 := fun y =>
  hidB m c (pt1 ⟨(y 0).val / 400, blk_lt y⟩) (ix2 (⟨(y 0).val % 400, Nat.mod_lt _ (by decide)⟩ : Fin 400) (y 1))

/-- The scratch arrays hold the hidden layer on the blocks below `n`. -/
def Inv (n : ℕ) (S0 : Vec F S10000x64 .f32) (S1 : Vec F S10000x64 .bf16) : Prop :=
  ∀ y : S10000x64.Idx, (y 0).val / 400 < n → S0 y = HidF m c y ∧ S1 y = HidB m c y

theorem inv_zero (S0 : Vec F S10000x64 .f32) (S1 : Vec F S10000x64 .bf16) : Inv m c 0 S0 S1 :=
  fun _ h => absurd h (Nat.not_lt_zero _)

/-- Storing hidden block `p` extends the invariant from the blocks below `p` to those below `p + 1`. -/
theorem inv_step (p : Fin 25) (S0 : Vec F S10000x64 .f32) (S1 : Vec F S10000x64 .bf16) (h : Inv m c p.val S0 S1) :
    Inv m c (p.val + 1) (putBlk S0 p (hidF m c (pt1 p))) (putBlk S1 p (hidB m c (pt1 p))) := by
  intro y hy
  by_cases e : (y 0).val / 400 = p.val
  · rw [putBlk_of_eq _ _ _ _ e, putBlk_of_eq _ _ _ _ e]
    have ep : (⟨(y 0).val / 400, blk_lt y⟩ : Fin 25) = p := Fin.ext e
    unfold HidF HidB; rw [ep]; exact ⟨rfl, rfl⟩
  · rw [putBlk_of_ne _ _ _ _ e, putBlk_of_ne _ _ _ _ e]
    exact h y (by omega)

/-- Once every block is stored the scratch arrays are the hidden layer. -/
theorem inv_full (S0 : Vec F S10000x64 .f32) (S1 : Vec F S10000x64 .bf16) (h : Inv m c 25 S0 S1) :
    S0 = HidF m c ∧ S1 = HidB m c :=
  ⟨funext fun y => (h y (blk_lt y)).1, funext fun y => (h y (blk_lt y)).2⟩

/-! ## The output block -/

/-- The output block stage-2 point `t` stores. -/
def outBlk (t : Fin cfg0.N) : Vec F S400x1 .f32 :=
  k0_pay4 (iblk m c 0 t) (HidB m c) (getBlk (HidF m c) (blkOf t)) (iblk m c 6 t) (iblk m c 5 t) (iblk m c 7 t) (iblk m c 8 t)

/-! ## The proof data -/

/-- Between points: the scratch arrays at contents satisfying the invariant (all 25 blocks from point 25 on), and the
    generator register at some state. -/
def Phi (n : Fin (cfg0.N + 1)) : sProp 𝕄 :=
  iprop(∃ (S0 : Vec F S10000x64 .f32) (S1 : Vec F S10000x64 .bf16), ⌜Inv m c (min n.val 25) S0 S1⌝
    ∗ owns (c : Thread nD τ) scrF fullShare S0 ∗ owns (c : Thread nD τ) scrB fullShare S1 ∗ (∃ r, prngReg c r))

/-- The relational proof data of the pipeline on core `c`. -/
def rdat : RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => X = Y
    | ⟨7, _⟩ => X = Y
    | ⟨8, _⟩ => X = Y
    | ⟨9, _⟩ => 25 ≤ t.val → X = outBlk m c t
  Φ n := Phi m c n
  q _ := fullShare
  owed _ := 0

theorem rdat_A (w : Fin cfg0.W) : (rdat m c).A w = V m c (Pipeline.arrRef spec0 w) := by dsimp only [rdat]

/-- What the relation says of the output's staging buffer. -/
theorem after9 (t : Fin cfg0.N) (Y X : (cfg0.win 9).block.Idx → Elt F (cfg0.win 9).elt) :
    (rdat m c).after 9 t Y X ↔ (25 ≤ t.val → X = outBlk m c t) := by dsimp only [rdat]; exact Iff.rfl

/-! ## What the body finds in the inputs' staging buffers: their blocks -/

theorem finds0 (t : Fin cfg0.N) (Y) (h : (rdat m c).Finds 0 t Y) : Y = iblk m c 0 t := by
  obtain ⟨d, rfl⟩ := (rdat m c).finds_in_eq_fetched 0 rfl (fun _ _ _ => rfl) (fun _ _ _ h => h) t Y h
  unfold RDat.fetched RDat.blockOf iblk; rfl
theorem finds1 (t : Fin cfg0.N) (Y) (h : (rdat m c).Finds 1 t Y) : Y = iblk m c 1 t := by
  obtain ⟨d, rfl⟩ := (rdat m c).finds_in_eq_fetched 1 rfl (fun _ _ _ => rfl) (fun _ _ _ h => h) t Y h
  unfold RDat.fetched RDat.blockOf iblk; rfl
theorem finds2 (t : Fin cfg0.N) (Y) (h : (rdat m c).Finds 2 t Y) : Y = iblk m c 2 t := by
  obtain ⟨d, rfl⟩ := (rdat m c).finds_in_eq_fetched 2 rfl (fun _ _ _ => rfl) (fun _ _ _ h => h) t Y h
  unfold RDat.fetched RDat.blockOf iblk; rfl
theorem finds3 (t : Fin cfg0.N) (Y) (h : (rdat m c).Finds 3 t Y) : Y = iblk m c 3 t := by
  obtain ⟨d, rfl⟩ := (rdat m c).finds_in_eq_fetched 3 rfl (fun _ _ _ => rfl) (fun _ _ _ h => h) t Y h
  unfold RDat.fetched RDat.blockOf iblk; rfl
theorem finds4 (t : Fin cfg0.N) (Y) (h : (rdat m c).Finds 4 t Y) : Y = iblk m c 4 t := by
  obtain ⟨d, rfl⟩ := (rdat m c).finds_in_eq_fetched 4 rfl (fun _ _ _ => rfl) (fun _ _ _ h => h) t Y h
  unfold RDat.fetched RDat.blockOf iblk; rfl
theorem finds5 (t : Fin cfg0.N) (Y) (h : (rdat m c).Finds 5 t Y) : Y = iblk m c 5 t := by
  obtain ⟨d, rfl⟩ := (rdat m c).finds_in_eq_fetched 5 rfl (fun _ _ _ => rfl) (fun _ _ _ h => h) t Y h
  unfold RDat.fetched RDat.blockOf iblk; rfl
theorem finds6 (t : Fin cfg0.N) (Y) (h : (rdat m c).Finds 6 t Y) : Y = iblk m c 6 t := by
  obtain ⟨d, rfl⟩ := (rdat m c).finds_in_eq_fetched 6 rfl (fun _ _ _ => rfl) (fun _ _ _ h => h) t Y h
  unfold RDat.fetched RDat.blockOf iblk; rfl
theorem finds7 (t : Fin cfg0.N) (Y) (h : (rdat m c).Finds 7 t Y) : Y = iblk m c 7 t := by
  obtain ⟨d, rfl⟩ := (rdat m c).finds_in_eq_fetched 7 rfl (fun _ _ _ => rfl) (fun _ _ _ h => h) t Y h
  unfold RDat.fetched RDat.blockOf iblk; rfl
theorem finds8 (t : Fin cfg0.N) (Y) (h : (rdat m c).Finds 8 t Y) : Y = iblk m c 8 t := by
  obtain ⟨d, rfl⟩ := (rdat m c).finds_in_eq_fetched 8 rfl (fun _ _ _ => rfl) (fun _ _ _ h => h) t Y h
  unfold RDat.fetched RDat.blockOf iblk; rfl

end Cert.KernelIdeal.Hand

end
-- ==== Proof.Ideal.Stage1.lean ====
/-
  STAGE 1 of the body, at a point `t < 25`: from the adjacency block `a`, the features `x` (bf16 copy and f32 block), the
  first layer's weights and bias it computes the hidden block `relu ((a · x − 3 · x_blk) · W1 + b1)` and stores it into
  rows `[400 p, 400 p + 400)` of both scratch arrays (f32, and truncated to bf16); the output's staging buffer and every
  input are left as found.  The values it loads from the scratch rows before storing are never used.
-/
import proofs.«130568_g9191230013956_cont_9to1_m_1205_10_alg».proof.Proof.Ideal.Points
import proofs.«130568_g9191230013956_cont_9to1_m_1205_10_alg».proof.Proof.RowBlocks
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

open Cert.RowBlocks

theorem zero2 : (![0, 0] : Fin 2 → ℕ) = fun _ => 0 := by
  funext a; match a with | ⟨0, _⟩ => rfl | ⟨1, _⟩ => rfl

set_option maxHeartbeats 1600000 in
/-- The body on whole staging memrefs at a stage-1 point whose scratch offset is row `400 p`: every buffer but the two
    scratch arrays is handed back as found, and each scratch array has block `p` replaced by the hidden block. -/
theorem stage1_run (c : Dev nD) (i : grid0.Coords) (arg1 : Memref sig .tc .vmem S400x10000 .f32) (harg1 : arg1.IsWhole) (arg2 : Memref sig .tc .vmem S10000x128 .bf16) (harg2 : arg2.IsWhole) (arg3 : Memref sig .tc .vmem S400x128 .f32) (harg3 : arg3.IsWhole) (arg4 : Memref sig .tc .vmem S1x64 .f32) (harg4 : arg4.IsWhole) (arg5 : Memref sig .tc .vmem S128x64 .f32) (harg5 : arg5.IsWhole) (arg6 : Memref sig .tc .vmem S1x32 .f32) (harg6 : arg6.IsWhole) (arg7 : Memref sig .tc .vmem S64x32 .f32) (harg7 : arg7.IsWhole) (arg8 : Memref sig .tc .vmem S32x1 .f32) (harg8 : arg8.IsWhole) (arg9 : Memref sig .tc .vmem S1x1 .f32) (harg9 : arg9.IsWhole) (arg10 : Memref sig .tc .vmem S400x1 .f32) (harg10 : arg10.IsWhole) (arg11 : Memref sig .tc .vmem S10000x64 .f32) (harg11 : arg11.IsWhole) (arg12 : Memref sig .tc .vmem S10000x64 .bf16) (harg12 : arg12.IsWhole) (hc0 : k0_cond1 i = 1#1) (hc1 : ¬ k0_cond2 i = 1#1)
    (p : Fin 25) (hoff : k0_off1 i = ![400 * p.val, 0])
    (x0 : Vec F S400x10000 .f32) (x1 : Vec F S10000x128 .bf16) (x2 : Vec F S400x128 .f32) (x3 : Vec F S1x64 .f32) (x4 : Vec F S128x64 .f32) (x5 : Vec F S1x32 .f32) (x6 : Vec F S64x32 .f32) (x7 : Vec F S32x1 .f32) (x8 : Vec F S1x1 .f32)
    (d9 : Vec F S400x1 .f32) (s0 : Vec F S10000x64 .f32) (s1 : Vec F S10000x64 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare d9 ∗ owns (c : Thread nD τ) arg11 fullShare s0 ∗ owns (c : Thread nD τ) arg12 fullShare s1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare d9
                ∗ owns (c : Thread nD τ) arg11 fullShare (putBlk s0 p (k0_pay2 x0 x1 x2 x4 x3))
                ∗ owns (c : Thread nD τ) arg12 fullShare (putBlk s1 p (k0_pay3 x0 x1 x2 x4 x3))) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12) K := by
    intro E K
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hfs0; obtain rfl := harg12.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [HS0]
    · iexists _; isplitr; swap; · iexact HS0
      ipureintro
      rw [read_writes_block _ _ _ _ p hoff, harg11.read_unread]
      simp only [View.readAt_eq_ld, Memref.IsWhole.read_unread, View.ld_unit_zero (S := S400x10000) zero2, View.ld_unit_zero (S := S10000x128) zero2, View.ld_unit_zero (S := S400x128) zero2, View.ld_unit_zero (S := S128x64) zero2, View.ld_unit_zero (S := S1x64) zero2]
    iexists _; isplitr; swap; · iexact HS1
    ipureintro
    rw [read_writes_block _ _ _ _ p hoff, harg12.read_unread]
    simp only [View.readAt_eq_ld, Memref.IsWhole.read_unread, View.ld_unit_zero (S := S400x10000) zero2, View.ld_unit_zero (S := S10000x128) zero2, View.ld_unit_zero (S := S400x128) zero2, View.ld_unit_zero (S := S128x64) zero2, View.ld_unit_zero (S := S1x64) zero2]

end Cert.KernelIdeal.Hand

end
-- ==== Proof.Ideal.Stage2.lean ====
/-
  STAGE 2 of the body, at a point `t ≥ 25`: from the adjacency block `a`, the complete hidden layer `h` (bf16 scratch,
  whole; f32 scratch, rows `[400 p, 400 p + 400)`), and the last two layers' weights and biases it computes the output
  block `relu ((a · h − 2 · h_blk) · W2 + b2) · W3 + b3` and stores it over the whole output staging buffer; every
  input and both scratch arrays are left as found.  The value it loads from the output buffer before storing is never
  used.
-/
import proofs.«130568_g9191230013956_cont_9to1_m_1205_10_alg».proof.Proof.Ideal.Points
import proofs.«130568_g9191230013956_cont_9to1_m_1205_10_alg».proof.Proof.RowBlocks
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

open Cert.RowBlocks

theorem zero2' : (![0, 0] : Fin 2 → ℕ) = fun _ => 0 := by
  funext a; match a with | ⟨0, _⟩ => rfl | ⟨1, _⟩ => rfl

set_option maxHeartbeats 1600000 in
/-- The body on whole staging memrefs at a stage-2 point that reads the f32 hidden rows from row `400 p`: the output's
    staging buffer ends at the output block, everything else as found. -/
theorem stage2_run (c : Dev nD) (i : grid0.Coords) (arg1 : Memref sig .tc .vmem S400x10000 .f32) (harg1 : arg1.IsWhole) (arg2 : Memref sig .tc .vmem S10000x128 .bf16) (harg2 : arg2.IsWhole) (arg3 : Memref sig .tc .vmem S400x128 .f32) (harg3 : arg3.IsWhole) (arg4 : Memref sig .tc .vmem S1x64 .f32) (harg4 : arg4.IsWhole) (arg5 : Memref sig .tc .vmem S128x64 .f32) (harg5 : arg5.IsWhole) (arg6 : Memref sig .tc .vmem S1x32 .f32) (harg6 : arg6.IsWhole) (arg7 : Memref sig .tc .vmem S64x32 .f32) (harg7 : arg7.IsWhole) (arg8 : Memref sig .tc .vmem S32x1 .f32) (harg8 : arg8.IsWhole) (arg9 : Memref sig .tc .vmem S1x1 .f32) (harg9 : arg9.IsWhole) (arg10 : Memref sig .tc .vmem S400x1 .f32) (harg10 : arg10.IsWhole) (arg11 : Memref sig .tc .vmem S10000x64 .f32) (harg11 : arg11.IsWhole) (arg12 : Memref sig .tc .vmem S10000x64 .bf16) (harg12 : arg12.IsWhole) (hc0 : ¬ k0_cond1 i = 1#1) (hc1 : k0_cond2 i = 1#1)
    (p : Fin 25) (hoff : k0_off2 i = ![400 * p.val, 0])
    (x0 : Vec F S400x10000 .f32) (x1 : Vec F S10000x128 .bf16) (x2 : Vec F S400x128 .f32) (x3 : Vec F S1x64 .f32) (x4 : Vec F S128x64 .f32) (x5 : Vec F S1x32 .f32) (x6 : Vec F S64x32 .f32) (x7 : Vec F S32x1 .f32) (x8 : Vec F S1x1 .f32)
    (d9 : Vec F S400x1 .f32) (s0 : Vec F S10000x64 .f32) (s1 : Vec F S10000x64 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare d9 ∗ owns (c : Thread nD τ) arg11 fullShare s0 ∗ owns (c : Thread nD τ) arg12 fullShare s1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
                ∗ owns (c : Thread nD τ) arg10 fullShare (k0_pay4 x0 s1 (getBlk s0 p) x6 x5 x7 x8)
                ∗ owns (c : Thread nD τ) arg11 fullShare s0
                ∗ owns (c : Thread nD τ) arg12 fullShare s1) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12) K := by
    intro E K
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hfs0; obtain rfl := harg12.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; swap; · iexact H9
      ipureintro
      rw [read_writes_all (S := S400x1) _ _ zero2' _ _]
      simp only [View.readAt_eq_ld, Memref.IsWhole.read_unread, View.ld_unit_zero (S := S400x10000) zero2', View.ld_unit_zero (S := S10000x64) zero2', View.ld_unit_zero (S := S64x32) zero2', View.ld_unit_zero (S := S1x32) zero2', View.ld_unit_zero (S := S32x1) zero2', View.ld_unit_zero (S := S1x1) zero2']
      rw [ld_block s0 _ p hoff]
    isplitl [HS0]
    · iexists _; isplitr; · ipureintro; exact harg11.read_unread _
      iexact HS0
    iexists _; isplitr; · ipureintro; exact harg12.read_unread _
    iexact HS1

end Cert.KernelIdeal.Hand

end
-- ==== Proof.Ideal.Body.lean ====
/-
  The body obligation: at every point, from the scratch invariant and the staging buffers at what the pipeline hands
  over, the kernel's body runs to the invariant at the next point and the buffers at contents the proof data allow.
  A stage-1 point stores its hidden block, which extends the invariant by one block, and leaves the output's buffer
  alone; a stage-2 point finds the hidden layer complete, so what it stores into the output's buffer is `outBlk`.
-/
import proofs.«130568_g9191230013956_cont_9to1_m_1205_10_alg».proof.Proof.Ideal.Data
import proofs.«130568_g9191230013956_cont_9to1_m_1205_10_alg».proof.Proof.Ideal.Stage1
import proofs.«130568_g9191230013956_cont_9to1_m_1205_10_alg».proof.Proof.Ideal.Stage2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

open Cert.RowBlocks

variable (m : (ℓ : Loc nD τ sig) → Buf (Elt F) ℓ) (c : Dev nD)

/-- What the body is called with at point `t`, the windows one by one. -/
def bodyPre (t : Fin cfg0.N) (Y : (w : Fin cfg0.W) → (cfg0.win w).block.Idx → Elt F (cfg0.win w).elt) : sProp 𝕄 :=
  iprop((rdat m c).Φ t.castSucc ∗ (rdat m c).owesAt () t.castSucc
    ∗ owns (c : Thread nD τ) (ms0 t) fullShare (Y 0)
    ∗ owns (c : Thread nD τ) (ms1 t) fullShare (Y 1)
    ∗ owns (c : Thread nD τ) (ms2 t) fullShare (Y 2)
    ∗ owns (c : Thread nD τ) (ms3 t) fullShare (Y 3)
    ∗ owns (c : Thread nD τ) (ms4 t) fullShare (Y 4)
    ∗ owns (c : Thread nD τ) (ms5 t) fullShare (Y 5)
    ∗ owns (c : Thread nD τ) (ms6 t) fullShare (Y 6)
    ∗ owns (c : Thread nD τ) (ms7 t) fullShare (Y 7)
    ∗ owns (c : Thread nD τ) (ms8 t) fullShare (Y 8)
    ∗ owns (c : Thread nD τ) (ms9 t) fullShare (Y 9))

/-- What it returns. -/
def bodyPost (t : Fin cfg0.N) (Y : (w : Fin cfg0.W) → (cfg0.win w).block.Idx → Elt F (cfg0.win w).elt) : sProp 𝕄 :=
  iprop((rdat m c).Φ t.succ ∗ (rdat m c).owesAt () t.succ
    ∗ (∃ X, ⌜(rdat m c).after 0 t (Y 0) X⌝ ∗ owns (c : Thread nD τ) (ms0 t) fullShare X)
    ∗ (∃ X, ⌜(rdat m c).after 1 t (Y 1) X⌝ ∗ owns (c : Thread nD τ) (ms1 t) fullShare X)
    ∗ (∃ X, ⌜(rdat m c).after 2 t (Y 2) X⌝ ∗ owns (c : Thread nD τ) (ms2 t) fullShare X)
    ∗ (∃ X, ⌜(rdat m c).after 3 t (Y 3) X⌝ ∗ owns (c : Thread nD τ) (ms3 t) fullShare X)
    ∗ (∃ X, ⌜(rdat m c).after 4 t (Y 4) X⌝ ∗ owns (c : Thread nD τ) (ms4 t) fullShare X)
    ∗ (∃ X, ⌜(rdat m c).after 5 t (Y 5) X⌝ ∗ owns (c : Thread nD τ) (ms5 t) fullShare X)
    ∗ (∃ X, ⌜(rdat m c).after 6 t (Y 6) X⌝ ∗ owns (c : Thread nD τ) (ms6 t) fullShare X)
    ∗ (∃ X, ⌜(rdat m c).after 7 t (Y 7) X⌝ ∗ owns (c : Thread nD τ) (ms7 t) fullShare X)
    ∗ (∃ X, ⌜(rdat m c).after 8 t (Y 8) X⌝ ∗ owns (c : Thread nD τ) (ms8 t) fullShare X)
    ∗ (∃ X, ⌜(rdat m c).after 9 t (Y 9) X⌝ ∗ owns (c : Thread nD τ) (ms9 t) fullShare X))

theorem blkOf_val (t : Fin cfg0.N) : (blkOf t).val = t.val % 25 := rfl

set_option maxHeartbeats 2400000 in
theorem sound_body (t : Fin cfg0.N) (Y : (w : Fin cfg0.W) → (cfg0.win w).block.Idx → Elt F (cfg0.win w).elt)
    (hY : ∀ w, (rdat m c).Finds w t (Y w)) :
    bodyPre m c t Y ⊢ wp frame (wpE (defs₀ (F := F)) Variants.none c none) Set.univ (bodyAt0 t) (fun _ => bodyPost m c t Y) := by
  have e0 := finds0 m c t (Y 0) (hY 0)
  have e1 := finds1 m c t (Y 1) (hY 1)
  have e2 := finds2 m c t (Y 2) (hY 2)
  have e3 := finds3 m c t (Y 3) (hY 3)
  have e4 := finds4 m c t (Y 4) (hY 4)
  have e5 := finds5 m c t (Y 5) (hY 5)
  have e6 := finds6 m c t (Y 6) (hY 6)
  have e7 := finds7 m c t (Y 7) (hY 7)
  have e8 := finds8 m c t (Y 8) (hY 8)
  have hN : t.val < 50 := lt_of_lt_of_eq t.isLt N_eq
  unfold bodyPre bodyPost bodyAt0
  rw [show (rdat m c).owesAt () t.succ = (rdat m c).owesAt () t.castSucc from rfl]
  rw [show (rdat m c).Φ t.castSucc = Phi m c t.castSucc from rfl, show (rdat m c).Φ t.succ = Phi m c t.succ from rfl]
  unfold Phi
  rw [Fin.coe_castSucc, Fin.val_succ]
  by_cases h : t.val < 25
  · -- stage 1: hidden block `t` is stored
    have ept : pt1 (blkOf t) = t := Fin.ext (by show t.val % 25 = t.val; omega)
    iintro ⟨⟨%S0, %S1, %hI, HS0, HS1, Hg⟩, Ho, H0, H1, H2, H3, H4, H5, H6, H7, H8, H9⟩
    iapply (stage1_run c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scrF (Memref.isWhole_whole _) scrB (Memref.isWhole_whole _)
      ((stage1_iff t).mpr h) (fun h' => absurd ((stage2_iff t).mp h') (by omega)) (blkOf t) (off1_eq t h)
      (Y 0) (Y 1) (Y 2) (Y 3) (Y 4) (Y 5) (Y 6) (Y 7) (Y 8) (Y 9) S0 S1 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    iintro ⟨H0, H1, H2, H3, H4, H5, H6, H7, H8, H9, HS0, HS1⟩
    isplitl [HS0 HS1 Hg]
    · iexists _, _; isplitr; swap
      · isplitl [HS0]; · iexact HS0
        isplitl [HS1]; · iexact HS1
        iexact Hg
      ipureintro
      have hs := inv_step m c (blkOf t) S0 S1 (by rw [blkOf_val, show t.val % 25 = t.val from by omega]; rwa [show min t.val 25 = t.val from by omega] at hI)
      rw [ept, blkOf_val, show t.val % 25 = t.val from by omega] at hs
      rw [show min (t.val + 1) 25 = t.val + 1 from by omega, e0, e1, e2, e3, e4]
      exact hs
    isplitl [Ho]; · iexact Ho
    isplitl [H0]
    · iexists (Y 0); isplitr; · ipureintro; exact rfl
      iexact H0
    isplitl [H1]
    · iexists (Y 1); isplitr; · ipureintro; exact rfl
      iexact H1
    isplitl [H2]
    · iexists (Y 2); isplitr; · ipureintro; exact rfl
      iexact H2
    isplitl [H3]
    · iexists (Y 3); isplitr; · ipureintro; exact rfl
      iexact H3
    isplitl [H4]
    · iexists (Y 4); isplitr; · ipureintro; exact rfl
      iexact H4
    isplitl [H5]
    · iexists (Y 5); isplitr; · ipureintro; exact rfl
      iexact H5
    isplitl [H6]
    · iexists (Y 6); isplitr; · ipureintro; exact rfl
      iexact H6
    isplitl [H7]
    · iexists (Y 7); isplitr; · ipureintro; exact rfl
      iexact H7
    isplitl [H8]
    · iexists (Y 8); isplitr; · ipureintro; exact rfl
      iexact H8
    iexists (Y 9); isplitr; swap; · iexact H9
    ipureintro; rw [after9]; intro h25; omega
  · -- stage 2: the hidden layer is complete
    have h25 : 25 ≤ t.val := by omega
    iintro ⟨⟨%S0, %S1, %hI, HS0, HS1, Hg⟩, Ho, H0, H1, H2, H3, H4, H5, H6, H7, H8, H9⟩
    rw [show min t.val 25 = 25 from by omega] at hI
    obtain ⟨rfl, rfl⟩ := inv_full m c S0 S1 hI
    iapply (stage2_run c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scrF (Memref.isWhole_whole _) scrB (Memref.isWhole_whole _)
      (fun h' => h ((stage1_iff t).mp h')) ((stage2_iff t).mpr h25) (blkOf t) (off2_eq t h25)
      (Y 0) (Y 1) (Y 2) (Y 3) (Y 4) (Y 5) (Y 6) (Y 7) (Y 8) (Y 9) (HidF m c) (HidB m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    iintro ⟨H0, H1, H2, H3, H4, H5, H6, H7, H8, H9, HS0, HS1⟩
    isplitl [HS0 HS1 Hg]
    · iexists _, _; isplitr; swap
      · isplitl [HS0]; · iexact HS0
        isplitl [HS1]; · iexact HS1
        iexact Hg
      ipureintro
      rw [show min (t.val + 1) 25 = 25 from by omega]
      exact fun y _ => ⟨rfl, rfl⟩
    isplitl [Ho]; · iexact Ho
    isplitl [H0]
    · iexists (Y 0); isplitr; · ipureintro; exact rfl
      iexact H0
    isplitl [H1]
    · iexists (Y 1); isplitr; · ipureintro; exact rfl
      iexact H1
    isplitl [H2]
    · iexists (Y 2); isplitr; · ipureintro; exact rfl
      iexact H2
    isplitl [H3]
    · iexists (Y 3); isplitr; · ipureintro; exact rfl
      iexact H3
    isplitl [H4]
    · iexists (Y 4); isplitr; · ipureintro; exact rfl
      iexact H4
    isplitl [H5]
    · iexists (Y 5); isplitr; · ipureintro; exact rfl
      iexact H5
    isplitl [H6]
    · iexists (Y 6); isplitr; · ipureintro; exact rfl
      iexact H6
    isplitl [H7]
    · iexists (Y 7); isplitr; · ipureintro; exact rfl
      iexact H7
    isplitl [H8]
    · iexists (Y 8); isplitr; · ipureintro; exact rfl
      iexact H8
    iexists _; isplitr; swap; · iexact H9
    ipureintro; rw [after9]; intro _
    rw [e0, e5, e6, e7, e8]; rfl

/-- The library's body obligation, at every point. -/
theorem body_obligation : (rdat m c).BodyObligation (defs₀ (F := F)) Variants.none () Set.univ := fun t Y hY => by
  rw [bigSep_W0, bigSep_W0]
  exact sound_body m c t Y hY

end Cert.KernelIdeal.Hand

end
-- ==== Proof.Ideal.Launch.lean ====
/-
  The launch: the scratch invariant starts and ends inside the region's class invariant (at the start nothing is asked
  of the scratch arrays, at the end their contents are forgotten), so the library's frame run applies; its post gives
  every argument array unchanged — a staged one because an input window's array is never written, an unstaged one
  because it bypasses the region.
-/
import proofs.«130568_g9191230013956_cont_9to1_m_1205_10_alg».proof.Proof.Ideal.Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem phi_in (c : Dev nD) : (Pipeline.ΦA spec0 c : sProp 𝕄) ⊢ (rdat m c).Φ 0 := by
  rw [PhiA_eq]
  show _ ⊢ Phi m c 0
  unfold Phi
  iintro ⟨⟨⟨%d0, H0⟩, ⟨%d1, H1⟩⟩, Hg⟩
  iexists d0, d1
  isplitr; · ipureintro; exact inv_zero m c d0 d1
  isplitl [H0]; · iexact H0
  isplitl [H1]; · iexact H1
  iexact Hg

theorem phi_out (c : Dev nD) : (rdat m c).Φ (Fin.last cfg0.N) ⊢ (Pipeline.ΦA spec0 c : sProp 𝕄) := by
  rw [PhiA_eq]
  show Phi m c (Fin.last cfg0.N) ⊢ _
  unfold Phi
  iintro ⟨%S0, %S1, -, H0, H1, Hg⟩
  isplitl [H0 H1]
  · isplitl [H0]; · iexists S0; iexact H0
    iexists S1; iexact H1
  iexact Hg

set_option backward.isDefEq.respectTransparency.types false in
/-- Every weakly fair execution of @main terminates; every array of the pipeline then holds contents the proof data
    allow after every write-back, and every other unscoped buffer what it held when the region was entered. -/
theorem run_main : θ_run defs (onTc (τ := τ) (main (F := F))) (s₀ m ρ)
    (Pipeline.RDat.FramePost (cfgs 0) (fun c => rdat m c) (V m)) :=
  Pipeline.RDat.θ_run_frame_track cfgs (0 : Fin 1) launch0 defs₀ Variants.none (fun c => rdat m c) m ρ main
    (hbody := fun c => body_obligation m c) (hshare := fun c w => by unfold RDat.share; split <;> rfl)
    (howed := fun _ _ => rfl) (V := V m) (hmain := hmain m Variants.none) (hA := fun c w => rdat_A m c w)
    (hin := fun c => phi_in m c) (hout := fun c => phi_out m c)

/-- The frame: the run terminates without a fault and leaves every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(Pipeline.RDat.FramePost.arr_in h c 0 rfl).trans ((rdat_A m c 0).trans (V_main_arg0 m c)),
      (Pipeline.RDat.FramePost.arr_in h c 2 rfl).trans ((rdat_A m c 2).trans (V_main_arg1 m c)),
      (Pipeline.RDat.FramePost.arr_in h c 4 rfl).trans ((rdat_A m c 4).trans (V_main_arg2 m c)),
      ((h c).2 main_arg3 (Pipeline.mem_restRefs_of main_arg3 (by decide) (by decide))).trans (V_main_arg3 m c),
      (Pipeline.RDat.FramePost.arr_in h c 6 rfl).trans ((rdat_A m c 6).trans (V_main_arg4 m c)),
      ((h c).2 main_arg5 (Pipeline.mem_restRefs_of main_arg5 (by decide) (by decide))).trans (V_main_arg5 m c),
      (Pipeline.RDat.FramePost.arr_in h c 7 rfl).trans ((rdat_A m c 7).trans (V_main_arg6 m c)),
      ((h c).2 main_arg7 (Pipeline.mem_restRefs_of main_arg7 (by decide) (by decide))).trans (V_main_arg7 m c)⟩) (run_main m ρ)

end Cert.KernelIdeal.Hand

end
-- ==== Proof.LibLateOutput.lean ====
/-
  A pipeline's output array under RELATIONAL proof data, when the body computes its result LATE.

  Proof data that name what the body leaves in an output's staging buffer give the array after the run as one term
  (`Dat.arrAt`), and the library reads that term at an index when every write-back writes its block of one array
  `G` (`Dat.arrAt_eq_of_cover`).  A kernel that leaves its output idle at its first points, while the pipeline writes
  the staging buffer back all the same at contents nobody names, has no such term: its proof data are relational, and
  the array after the run is known only as a predicate (`RDat.ArrAt`).  Here: if every write-back from point `n₀` on
  writes its block of `G` — whatever the earlier ones wrote —, an index that a write-back at or after `n₀` covers
  holds `G` there after the run (a later write-back covering it writes `G` again; an earlier one is overwritten);
  so if those write-backs cover the array, it is `G`.
-/
import Idealize.ShloMosaic.Lib.Pipeline.Cells

namespace Idealize.ShloMosaic.Pipeline

open Idealize.SL Idealize.SL.RA Idealize.SL.Sem

variable {nD : Nat} {τ : Topo} {sig : RefSig} {Val : EltTy → Type}
variable {Ix : Type} [DecidableEq Ix] {Name : Type} [DecidableEq Name] {U : Type} [URA U] {Lvl : Type}
variable {Λ₀ : SL.Sem.Labels} {cfg : Cfg sig Λ₀} {c : Dev nD} (rd : RDat τ Val Ix Name U Lvl cfg c)

/-- An index under the block of a write-back at a point `t` with `n₀ ≤ t < n` holds `G` after the write-backs below
    `n`, if every write-back from `n₀` on writes its block of `G`. -/
theorem RDat.arrAt_apply_of_late (w : Fin cfg.W) (G : Buf Val ((cfg.win w).arr.view.loc (c.tc : Thread nD τ))) (n₀ : ℕ)
    (hG : ∀ t : Fin cfg.N, n₀ ≤ t.val → (cfg.win w).flush t = true → ∀ X, rd.Leaves w t X →
      (cfg.win w).cut (cfg.grid.coords t) X = ((cfg.win w).blk t).view.read Val G) :
    ∀ (n : ℕ) (F : Buf Val ((cfg.win w).arr.view.loc (c.tc : Thread nD τ))), rd.ArrAt w n F →
      ∀ (t : Fin cfg.N) (i : ((cfg.win w).arr.view.loc (c.tc : Thread nD τ)).2.ty.Idx),
        n₀ ≤ t.val → t.val < n → (cfg.win w).flush t = true → i ∈ ((cfg.win w).blk t).view.set → F i = G i
  | 0, _, _, _, _, _, ht, _, _ => absurd ht (Nat.not_lt_zero _)
  | n + 1, F, hF, t, i, h0, ht, hf, hi => by
    by_cases hn : n < cfg.N
    swap
    · -- past the grid nothing changes, and `t` is below `n`
      rw [rd.ArrAt_stable w (n + 1) (by omega), ← rd.ArrAt_stable w n (by omega)] at hF
      exact RDat.arrAt_apply_of_late w G n₀ hG n F hF t i h0 (by have := t.isLt; omega) hf hi
    rw [show n + 1 = (⟨n, hn⟩ : Fin cfg.N).val + 1 from rfl, rd.ArrAt_succ] at hF
    by_cases hfn : (cfg.win w).flush ⟨n, hn⟩ = true
    · rw [if_pos hfn] at hF
      obtain ⟨F₀, X, hF₀, hX, rfl⟩ := hF
      by_cases hin : i ∈ ((cfg.win w).blk ⟨n, hn⟩).view.setOn Finset.univ
      · -- point `n` covers the index, and `n₀ ≤ t ≤ n`: it writes `G` there
        rw [hG ⟨n, hn⟩ (by show n₀ ≤ n; omega) hfn X hX, View.write_read_eq_piecewise,
          Finset.piecewise_eq_of_mem _ _ _ hin]
      · -- it does not: then `t` is an earlier point
        rw [View.write_of_not_mem _ _ _ hin]
        have htn : t.val ≠ n := fun e => hin (by
          rw [View.setOn_univ]; have : t = ⟨n, hn⟩ := Fin.ext e; exact this ▸ hi)
        exact RDat.arrAt_apply_of_late w G n₀ hG n F₀ hF₀ t i h0 (by omega) hf hi
    · rw [if_neg hfn] at hF
      have htn : t.val ≠ n := fun e => hfn (by have : t = ⟨n, hn⟩ := Fin.ext e; exact this ▸ hf)
      exact RDat.arrAt_apply_of_late w G n₀ hG n F hF t i h0 (by omega) hf hi

/-- If the write-backs from `n₀` on write their blocks of `G` and cover the array, the array after the run is `G`. -/
theorem RDat.arrAt_eq_of_late_cover (w : Fin cfg.W) (G : Buf Val ((cfg.win w).arr.view.loc (c.tc : Thread nD τ))) (n₀ : ℕ)
    (hG : ∀ t : Fin cfg.N, n₀ ≤ t.val → (cfg.win w).flush t = true → ∀ X, rd.Leaves w t X →
      (cfg.win w).cut (cfg.grid.coords t) X = ((cfg.win w).blk t).view.read Val G)
    (hcover : ∀ i : ((cfg.win w).arr.view.loc (c.tc : Thread nD τ)).2.ty.Idx,
      ∃ t : Fin cfg.N, n₀ ≤ t.val ∧ (cfg.win w).flush t = true ∧ i ∈ ((cfg.win w).blk t).view.set)
    (F : Buf Val ((cfg.win w).arr.view.loc (c.tc : Thread nD τ))) (hF : rd.ArrAt w cfg.N F) : F = G :=
  funext fun i => by
    obtain ⟨t, h0, hf, hi⟩ := hcover i
    exact rd.arrAt_apply_of_late w G n₀ hG cfg.N F hF t i h0 t.isLt hf hi

end Idealize.ShloMosaic.Pipeline
-- ==== Proof.Ideal.Final.lean ====
/-
  The output array after the run.  Output block `p` is written back twice: at stage-1 point `p`, at contents nobody
  names, and at stage-2 point `25 + p`, at `outBlk (25 + p)`.  The later write-back wins, the 25 blocks tile the array,
  so the array ends at `OutArr`: row `r` is row `r % 400` of the block stage-2 point `25 + r / 400` stores.
-/
import proofs.«130568_g9191230013956_cont_9to1_m_1205_10_alg».proof.Proof.Ideal.Data
import proofs.«130568_g9191230013956_cont_9to1_m_1205_10_alg».proof.Proof.LibLateOutput

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

open Cert.RowBlocks Idealize.ShloMosaic.ValueIdx

variable (m : (ℓ : Loc nD τ sig) → Buf (Elt F) ℓ) (c : Dev nD)

/-- The stage-2 point that computes output block `p`. -/
def pt2 (p : Fin 25) : Fin cfg0.N := ⟨25 + p.val, by have := p.isLt; rw [N_eq]; omega⟩

theorem oblk_lt (y : S10000x1.Idx) : (y 0).val / 400 < 25 := by
  have : (y 0).val < 10000 := (y 0).isLt
  omega

/-- The output array: row `r` is row `r % 400` of the block of stage-2 point `25 + r / 400`. -/
def OutArr : Vec F S10000x1 .f32 := fun y =>
  outBlk m c (pt2 ⟨(y 0).val / 400, oblk_lt y⟩) (ix2 (⟨(y 0).val % 400, Nat.mod_lt _ (by decide)⟩ : Fin 400) (y 1))

/-- The printed index map of the output window, decided over the grid: row block `t % 25`, column block `0`. -/
theorem out_index : ∀ t : Fin cfg0.N, win0_9.index t (0 : Fin 2) = t.val % 25 ∧ win0_9.index t (1 : Fin 2) = 0 :=
  (by decide +kernel : ∀ t : Fin grid0.N, _)

/-- Row `(t % 25) * 400 + x 0` of the output array, for a stage-2 point `t`, is row `x 0` of the block that point
    stores: the row's block is `t % 25`, the stage-2 point of that block is `25 + t % 25 = t`, and the row inside the
    block is `x 0`. -/
theorem outArr_at (t : Fin cfg0.N) (h25 : 25 ≤ t.val) (x : S400x1.Idx) (y : S10000x1.Idx)
    (h0 : (y 0).val = t.val % 25 * 400 + (x 0).val) (h1 : (y 1).val = (x 1).val) :
    OutArr m c y = outBlk m c t x := by
  have hx : (x 0).val < 400 := (x 0).isLt
  have ht : t.val < 50 := lt_of_lt_of_eq t.isLt N_eq
  unfold OutArr
  have hp : pt2 ⟨(y 0).val / 400, oblk_lt y⟩ = t :=
    Fin.ext (by show 25 + (y 0).val / 400 = t.val; omega)
  rw [hp]
  refine congrArg (outBlk m c t) ?_
  funext a
  match a with
  | ⟨0, _⟩ => exact Fin.ext (by show (y 0).val % 400 = (x 0).val; omega)
  | ⟨1, _⟩ => exact Fin.ext h1

/-- What a stage-2 point leaves in the output's staging buffer is its block of the output array. -/
theorem leaves_eq (t : Fin cfg0.N) (h25 : 25 ≤ t.val) (X : (cfg0.win 9).block.Idx → Elt F (cfg0.win 9).elt)
    (hX : (rdat m c).Leaves 9 t X) :
    (cfg0.win 9).cut (cfg0.grid.coords t) X = ((cfg0.win 9).blk t).view.read (Elt F) (OutArr m c) := by
  obtain ⟨Y, _, hafter⟩ := hX
  have e : X = outBlk m c t := (after9 m c t Y X).mp hafter h25
  rw [e]
  funext x
  rw [View.read_apply]
  show outBlk m c t x = OutArr m c (((cfg0.win 9).blk t).view.emb x)
  obtain ⟨e0, e1⟩ := out_index t
  refine (outArr_at m c t h25 x _ ?_ ?_).symm
  · show win0_9.index t (0 : Fin 2) * 400 + 1 * (x 0).val = t.val % 25 * 400 + (x 0).val
    rw [e0]; omega
  · show win0_9.index t (1 : Fin 2) * 1 + 1 * (x 1).val = (x 1).val
    rw [e1]; omega

/-- An index of the array is in point `t`'s block iff each coordinate is in the block's range on its axis. -/
theorem mem_out_blk (t : Fin cfg0.N) (i : S10000x1.Idx) :
    i ∈ ((cfg0.win 9).blk t).view.set ↔ ∀ a : Fin 2, win0_9.index t a * S400x1.size a ≤ (i a).val ∧ (i a).val < win0_9.index t a * S400x1.size a + S400x1.size a := by
  show i ∈ ((View.whole main_v4).slice (win0_9.rect t)).set ↔ _
  rw [View.set_slice_whole, Rect.mem_set_unit]
  exact Iff.rfl

/-- Every row of the array is in the block of the stage-2 point of its row block. -/
theorem covered (i : S10000x1.Idx) :
    ∃ t : Fin cfg0.N, 25 ≤ t.val ∧ (cfg0.win 9).flush t = true ∧ i ∈ ((cfg0.win 9).blk t).view.set := by
  have hi0 : (i 0).val < 10000 := (i 0).isLt
  have hi1 : (i 1).val < 1 := (i 1).isLt
  refine ⟨pt2 ⟨(i 0).val / 400, oblk_lt i⟩, Nat.le_add_right _ _, flush0_9 _, ?_⟩
  obtain ⟨e0, e1⟩ := out_index (pt2 ⟨(i 0).val / 400, oblk_lt i⟩)
  have ev : (pt2 ⟨(i 0).val / 400, oblk_lt i⟩).val % 25 = (i 0).val / 400 := by
    show (25 + (i 0).val / 400) % 25 = (i 0).val / 400; omega
  rw [mem_out_blk]
  intro a
  match a with
  | ⟨0, _⟩ =>
    show win0_9.index _ (0 : Fin 2) * 400 ≤ (i 0).val ∧ (i 0).val < win0_9.index _ (0 : Fin 2) * 400 + 400
    rw [e0, ev]; omega
  | ⟨1, _⟩ =>
    show win0_9.index _ (1 : Fin 2) * 1 ≤ (i 1).val ∧ (i 1).val < win0_9.index _ (1 : Fin 2) * 1 + 1
    rw [e1]; omega

/-- Whatever the output's array may hold after every write-back is `OutArr`. -/
theorem final9 (G : Buf (Elt F) ((cfg0.win 9).arr.view.loc (c.tc : Thread nD τ)))
    (h : (rdat m c).ArrAt 9 cfg0.N G) : G = OutArr m c :=
  (rdat m c).arrAt_eq_of_late_cover 9 (OutArr m c) 25
    (fun t h25 _ X hX => leaves_eq m c t h25 X hX) (fun i => covered i) G h

end Cert.KernelIdeal.Hand

end
-- ==== Proof.Ideal.Value.lean ====
/-
  The run, with the result named: every weakly fair execution of the fused kernel terminates, its result array holds
  `OutArr`, and its argument arrays are as launched.
-/
import proofs.«130568_g9191230013956_cont_9to1_m_1205_10_alg».proof.Proof.Ideal.Launch
import proofs.«130568_g9191230013956_cont_9to1_m_1205_10_alg».proof.Proof.Ideal.Final

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem run_value : θ_run defs (onTc (τ := τ) (main (F := F))) ⟨m, fun _ => 0, ρ⟩ (fun r => ∀ c : Dev nD,
      r.2.mem ((c.tc : Thread nD τ).loc main_v4) = OutArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨final9 m c _ ((h c).1 9),
      (Pipeline.RDat.FramePost.arr_in h c 0 rfl).trans ((rdat_A m c 0).trans (V_main_arg0 m c)),
      (Pipeline.RDat.FramePost.arr_in h c 2 rfl).trans ((rdat_A m c 2).trans (V_main_arg1 m c)),
      (Pipeline.RDat.FramePost.arr_in h c 4 rfl).trans ((rdat_A m c 4).trans (V_main_arg2 m c)),
      ((h c).2 main_arg3 (Pipeline.mem_restRefs_of main_arg3 (by decide) (by decide))).trans (V_main_arg3 m c),
      (Pipeline.RDat.FramePost.arr_in h c 6 rfl).trans ((rdat_A m c 6).trans (V_main_arg4 m c)),
      ((h c).2 main_arg5 (Pipeline.mem_restRefs_of main_arg5 (by decide) (by decide))).trans (V_main_arg5 m c),
      (Pipeline.RDat.FramePost.arr_in h c 7 rfl).trans ((rdat_A m c 7).trans (V_main_arg6 m c)),
      ((h c).2 main_arg7 (Pipeline.mem_restRefs_of main_arg7 (by decide) (by decide))).trans (V_main_arg7 m c)⟩) (run_main m ρ)

end Cert.KernelIdeal.Hand

end
-- ==== Proof.Spec.lean ====
/-
  The two-layer graph filter as ONE function of its argument arrays, over the extended reals:

    hid  = relu ((−3 · X + A · X) · W1 + b1)          [10000, 64]
    out  = relu ((−2 · hid + A · hid) · W2 + b2) · W3 + b3   [10000, 1]

  every product a plain sum over the contracted axis.  Both programs are shown to compute `out`.
-/
import Idealize.ShloMosaic.PureOps.Ideal
import Idealize.ShloMosaic.Lib.ValueIdx

noncomputable section

namespace Cert.Spec

open Idealize.ShloMosaic Idealize.ShloMosaic.ValueIdx

abbrev SA : Shape := ⟨2, ![10000, 10000]⟩
abbrev SX : Shape := ⟨2, ![10000, 128]⟩
abbrev SW1 : Shape := ⟨2, ![128, 64]⟩
abbrev Sb1 : Shape := ⟨1, ![64]⟩
abbrev SW2 : Shape := ⟨2, ![64, 32]⟩
abbrev Sb2 : Shape := ⟨1, ![32]⟩
abbrev SW3 : Shape := ⟨2, ![32, 1]⟩
abbrev Sb3 : Shape := ⟨1, ![1]⟩
abbrev SO : Shape := ⟨2, ![10000, 1]⟩

variable (A : SA.Idx → EReal) (X : SX.Idx → EReal) (W1 : SW1.Idx → EReal) (b1 : Sb1.Idx → EReal)
  (W2 : SW2.Idx → EReal) (b2 : Sb2.Idx → EReal) (W3 : SW3.Idx → EReal) (b3 : Sb3.Idx → EReal)

/-- Row `r` of `−3 · X + A · X`. -/
def pre1 (r : Fin 10000) (k : Fin 128) : EReal :=
  ((-3 : ℝ) : EReal) * X (ix2 r k) + ∑ n : Fin 10000, A (ix2 r n) * X (ix2 n k)

/-- The hidden layer. -/
def hid (r : Fin 10000) (j : Fin 64) : EReal :=
  max ((∑ k : Fin 128, pre1 A X r k * W1 (ix2 k j)) + b1 (ix1 j)) 0

/-- Row `r` of `−2 · hid + A · hid`. -/
def pre2 (r : Fin 10000) (j : Fin 64) : EReal :=
  ((-2 : ℝ) : EReal) * hid A X W1 b1 r j + ∑ n : Fin 10000, A (ix2 r n) * hid A X W1 b1 n j

/-- The second hidden layer. -/
def hid2 (r : Fin 10000) (l : Fin 32) : EReal :=
  max ((∑ j : Fin 64, pre2 A X W1 b1 r j * W2 (ix2 j l)) + b2 (ix1 l)) 0

/-- The result. -/
def out (y : SO.Idx) : EReal :=
  (∑ l : Fin 32, hid2 A X W1 b1 W2 b2 (y 0) l * W3 (ix2 l (y 1))) + b3 (ix1 (y 1))

end Cert.Spec

end
-- ==== Proof.KerIn.lean ====
/-
  The kernel's input blocks at the ideal instance, read at an index, are the argument arrays read at an index: the
  adjacency's and the features' blocks at point `t` are rows `[400 (t % 25), 400 (t % 25) + 400)`; the bf16 copy of the
  features is the features (a change of float format is the identity); the bias rows are the biases re-laid
  `[n] → [1, n]`; the weights are whole.
-/
import proofs.«130568_g9191230013956_cont_9to1_m_1205_10_alg».proof.Proof.Ideal.Data
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KerIn

open Idealize.ShloMosaic Idealize.ShloMosaic.TcCoe Idealize.SL.Sem Idealize.ShloMosaic.ValueIdx
open Cert.KernelIdeal Cert.KernelIdeal.Gen
open Cert.KernelIdeal.Hand

variable (m : (ℓ : Loc nD τ sig) → Buf (Elt Ideal) ℓ) (c : Dev nD) (t : Fin cfg0.N)

theorem row_lt (i : Fin 400) : 400 * (t.val % 25) + i.val < 10000 := by
  have := i.isLt; have : t.val % 25 < 25 := Nat.mod_lt _ (by decide); omega

/-! ## The index maps, decided over the grid

The two row-blocked windows sit at block row `t % 25`, block column `0`; every other input window sits at block `(0, 0)`
at every point. -/

theorem index_win0 : ∀ t : Fin cfg0.N, win0_0.index t (0 : Fin 2) = t.val % 25 ∧ win0_0.index t (1 : Fin 2) = 0 :=
  (by decide +kernel : ∀ t : Fin grid0.N, _)
theorem index_win1 : ∀ t : Fin cfg0.N, win0_1.index t (0 : Fin 2) = 0 ∧ win0_1.index t (1 : Fin 2) = 0 :=
  (by decide +kernel : ∀ t : Fin grid0.N, _)
theorem index_win2 : ∀ t : Fin cfg0.N, win0_2.index t (0 : Fin 2) = t.val % 25 ∧ win0_2.index t (1 : Fin 2) = 0 :=
  (by decide +kernel : ∀ t : Fin grid0.N, _)
theorem index_win3 : ∀ t : Fin cfg0.N, win0_3.index t (0 : Fin 2) = 0 ∧ win0_3.index t (1 : Fin 2) = 0 :=
  (by decide +kernel : ∀ t : Fin grid0.N, _)
theorem index_win4 : ∀ t : Fin cfg0.N, win0_4.index t (0 : Fin 2) = 0 ∧ win0_4.index t (1 : Fin 2) = 0 :=
  (by decide +kernel : ∀ t : Fin grid0.N, _)
theorem index_win5 : ∀ t : Fin cfg0.N, win0_5.index t (0 : Fin 2) = 0 ∧ win0_5.index t (1 : Fin 2) = 0 :=
  (by decide +kernel : ∀ t : Fin grid0.N, _)
theorem index_win6 : ∀ t : Fin cfg0.N, win0_6.index t (0 : Fin 2) = 0 ∧ win0_6.index t (1 : Fin 2) = 0 :=
  (by decide +kernel : ∀ t : Fin grid0.N, _)
theorem index_win7 : ∀ t : Fin cfg0.N, win0_7.index t (0 : Fin 2) = 0 ∧ win0_7.index t (1 : Fin 2) = 0 :=
  (by decide +kernel : ∀ t : Fin grid0.N, _)
theorem index_win8 : ∀ t : Fin cfg0.N, win0_8.index t (0 : Fin 2) = 0 ∧ win0_8.index t (1 : Fin 2) = 0 :=
  (by decide +kernel : ∀ t : Fin grid0.N, _)

/-! ## The arrays the host operations write, as the region finds them

Each is written once, from an argument array no host operation writes: the bf16 copy is the format change of the
features, the three bias rows are the biases re-laid in row-major order. -/

theorem entry_v0 : (V m c main_v0 : S10000x128.Idx → EReal)
    = truncf (F := Ideal) .bf16 (m ((c.tc : Thread nD τ).loc main_arg1)) bitsLt_bf16_f32 := by
  dsimp only [Gen.V, Gen.hostOps0]
  after_results
theorem entry_v1 : (V m c main_v1 : S1x64.Idx → EReal)
    = shapeCast S1x64 (m ((c.tc : Thread nD τ).loc main_arg3)) shapeCasts_S64_S1x64 := by
  dsimp only [Gen.V, Gen.hostOps0]
  after_results
  rfl
theorem entry_v2 : (V m c main_v2 : S1x32.Idx → EReal)
    = shapeCast S1x32 (m ((c.tc : Thread nD τ).loc main_arg5)) shapeCasts_S32_S1x32 := by
  dsimp only [Gen.V, Gen.hostOps0]
  after_results
  rfl
theorem entry_v3 : (V m c main_v3 : S1x1.Idx → EReal)
    = shapeCast S1x1 (m ((c.tc : Thread nD τ).loc main_arg7)) shapeCasts_S1_S1x1 := by
  dsimp only [Gen.V, Gen.hostOps0]
  after_results
  rfl

/-! ## The blocks at an index

A block's coordinate on an axis is (block index) × (block extent) + the coordinate inside the block. -/

/-- The adjacency block: rows `400 (t % 25) + i`. -/
theorem in0 (i : Fin 400) (n : Fin 10000) :
    iblk (F := Ideal) m c 0 t (ix2 i n) = (m ((c.tc : Thread nD τ).loc main_arg0)) (ix2 (⟨400 * (t.val % 25) + i.val, row_lt t i⟩ : Fin 10000) n) := by
  unfold iblk
  show V m c main_arg0 (((cfg0.win 0).blk t).view.emb (ix2 i n)) = _
  rw [V_main_arg0]
  obtain ⟨e0, e1⟩ := index_win0 t
  refine congrArg _ (funext fun a => Fin.ext ?_)
  match a with
  | ⟨0, _⟩ => show win0_0.index t (0 : Fin 2) * 400 + 1 * i.val = 400 * (t.val % 25) + i.val; omega
  | ⟨1, _⟩ => show win0_0.index t (1 : Fin 2) * 10000 + 1 * n.val = n.val; omega
/-- The bf16 copy of the features, whole. -/
theorem in1 (n : Fin 10000) (k : Fin 128) :
    iblk (F := Ideal) m c 1 t (ix2 n k) = (m ((c.tc : Thread nD τ).loc main_arg1)) (ix2 n k) := by
  unfold iblk
  show (V m c main_v0 : S10000x128.Idx → EReal) (((cfg0.win 1).blk t).view.emb (ix2 n k)) = _
  rw [entry_v0]
  obtain ⟨e0, e1⟩ := index_win1 t
  have e : ((cfg0.win 1).blk t).view.emb (ix2 n k) = ix2 n k := by
    refine funext fun a => Fin.ext ?_
    match a with
    | ⟨0, _⟩ => show win0_1.index t (0 : Fin 2) * 10000 + 1 * n.val = n.val; omega
    | ⟨1, _⟩ => show win0_1.index t (1 : Fin 2) * 128 + 1 * k.val = k.val; omega
  rw [e]
  -- on the extended reals a change of float format is the identity
  rfl
/-- The features' block: rows `400 (t % 25) + i`. -/
theorem in2 (i : Fin 400) (k : Fin 128) :
    iblk (F := Ideal) m c 2 t (ix2 i k) = (m ((c.tc : Thread nD τ).loc main_arg1)) (ix2 (⟨400 * (t.val % 25) + i.val, row_lt t i⟩ : Fin 10000) k) := by
  unfold iblk
  show V m c main_arg1 (((cfg0.win 2).blk t).view.emb (ix2 i k)) = _
  rw [V_main_arg1]
  obtain ⟨e0, e1⟩ := index_win2 t
  refine congrArg _ (funext fun a => Fin.ext ?_)
  match a with
  | ⟨0, _⟩ => show win0_2.index t (0 : Fin 2) * 400 + 1 * i.val = 400 * (t.val % 25) + i.val; omega
  | ⟨1, _⟩ => show win0_2.index t (1 : Fin 2) * 128 + 1 * k.val = k.val; omega
/-- The first bias, as a row. -/
theorem in3 (z : Fin 1) (j : Fin 64) :
    iblk (F := Ideal) m c 3 t (ix2 z j) = (m ((c.tc : Thread nD τ).loc main_arg3)) (ix1 j) := by
  unfold iblk
  show (V m c main_v1 : S1x64.Idx → EReal) (((cfg0.win 3).blk t).view.emb (ix2 z j)) = _
  rw [entry_v1]
  obtain ⟨e0, e1⟩ := index_win3 t
  have e : ((cfg0.win 3).blk t).view.emb (ix2 z j) = ix2 z j := by
    refine funext fun a => Fin.ext ?_
    match a with
    | ⟨0, _⟩ => show win0_3.index t (0 : Fin 2) * 1 + 1 * z.val = z.val; omega
    | ⟨1, _⟩ => show win0_3.index t (1 : Fin 2) * 64 + 1 * j.val = j.val; omega
  rw [e]
  exact shapeCast_a_1a_apply _ _ z j
/-- The first weights, whole. -/
theorem in4 (k : Fin 128) (j : Fin 64) :
    iblk (F := Ideal) m c 4 t (ix2 k j) = (m ((c.tc : Thread nD τ).loc main_arg2)) (ix2 k j) := by
  unfold iblk
  show V m c main_arg2 (((cfg0.win 4).blk t).view.emb (ix2 k j)) = _
  rw [V_main_arg2]
  obtain ⟨e0, e1⟩ := index_win4 t
  refine congrArg _ (funext fun a => Fin.ext ?_)
  match a with
  | ⟨0, _⟩ => show win0_4.index t (0 : Fin 2) * 128 + 1 * k.val = k.val; omega
  | ⟨1, _⟩ => show win0_4.index t (1 : Fin 2) * 64 + 1 * j.val = j.val; omega
/-- The second bias, as a row. -/
theorem in5 (z : Fin 1) (l : Fin 32) :
    iblk (F := Ideal) m c 5 t (ix2 z l) = (m ((c.tc : Thread nD τ).loc main_arg5)) (ix1 l) := by
  unfold iblk
  show (V m c main_v2 : S1x32.Idx → EReal) (((cfg0.win 5).blk t).view.emb (ix2 z l)) = _
  rw [entry_v2]
  obtain ⟨e0, e1⟩ := index_win5 t
  have e : ((cfg0.win 5).blk t).view.emb (ix2 z l) = ix2 z l := by
    refine funext fun a => Fin.ext ?_
    match a with
    | ⟨0, _⟩ => show win0_5.index t (0 : Fin 2) * 1 + 1 * z.val = z.val; omega
    | ⟨1, _⟩ => show win0_5.index t (1 : Fin 2) * 32 + 1 * l.val = l.val; omega
  rw [e]
  exact shapeCast_a_1a_apply _ _ z l
/-- The second weights, whole. -/
theorem in6 (j : Fin 64) (l : Fin 32) :
    iblk (F := Ideal) m c 6 t (ix2 j l) = (m ((c.tc : Thread nD τ).loc main_arg4)) (ix2 j l) := by
  unfold iblk
  show V m c main_arg4 (((cfg0.win 6).blk t).view.emb (ix2 j l)) = _
  rw [V_main_arg4]
  obtain ⟨e0, e1⟩ := index_win6 t
  refine congrArg _ (funext fun a => Fin.ext ?_)
  match a with
  | ⟨0, _⟩ => show win0_6.index t (0 : Fin 2) * 64 + 1 * j.val = j.val; omega
  | ⟨1, _⟩ => show win0_6.index t (1 : Fin 2) * 32 + 1 * l.val = l.val; omega
/-- The last weights, whole. -/
theorem in7 (l : Fin 32) (q : Fin 1) :
    iblk (F := Ideal) m c 7 t (ix2 l q) = (m ((c.tc : Thread nD τ).loc main_arg6)) (ix2 l q) := by
  unfold iblk
  show V m c main_arg6 (((cfg0.win 7).blk t).view.emb (ix2 l q)) = _
  rw [V_main_arg6]
  obtain ⟨e0, e1⟩ := index_win7 t
  refine congrArg _ (funext fun a => Fin.ext ?_)
  match a with
  | ⟨0, _⟩ => show win0_7.index t (0 : Fin 2) * 32 + 1 * l.val = l.val; omega
  | ⟨1, _⟩ => show win0_7.index t (1 : Fin 2) * 1 + 1 * q.val = q.val; omega
/-- The last bias, as a row. -/
theorem in8 (z q : Fin 1) :
    iblk (F := Ideal) m c 8 t (ix2 z q) = (m ((c.tc : Thread nD τ).loc main_arg7)) (ix1 q) := by
  unfold iblk
  show (V m c main_v3 : S1x1.Idx → EReal) (((cfg0.win 8).blk t).view.emb (ix2 z q)) = _
  rw [entry_v3]
  obtain ⟨e0, e1⟩ := index_win8 t
  have e : ((cfg0.win 8).blk t).view.emb (ix2 z q) = ix2 z q := by
    refine funext fun a => Fin.ext ?_
    match a with
    | ⟨0, _⟩ => show win0_8.index t (0 : Fin 2) * 1 + 1 * z.val = z.val; omega
    | ⟨1, _⟩ => show win0_8.index t (1 : Fin 2) * 1 + 1 * q.val = q.val; omega
  rw [e]
  exact shapeCast_a_1a_apply _ _ z q

end Cert.KerIn

end
-- ==== Proof.Consts.lean ====
/-
  The float constants the two programs spell, as the extended reals their words denote, and the law that joins the
  two sides: the kernel subtracts `3 · x` (and `2 · h`) from the aggregate, the reference adds `(−3) · x` (and
  `(−2) · h`) to it.  On the extended reals `a − k · x = (−k) · x + a` with no finiteness needed: negation
  distributes into a product, and addition commutes.
-/
import Idealize.ShloMosaic.PureOps.Ideal

noncomputable section

namespace Cert.Consts

open Idealize.ShloMosaic

theorem ofBits_zero : Ideal.ofBits .f32 0x00000000#32 = 0 := by
  simp [Ideal.ofBits, Ideal.ieee]

theorem ofBits_three : Ideal.ofBits .f32 0x40400000#32 = ((3 : ℝ) : EReal) := by
  simp [Ideal.ofBits, Ideal.ieee, -EReal.coe_mul]; norm_num

theorem ofBits_neg_three : Ideal.ofBits .f32 0xC0400000#32 = ((-3 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_neg_two : Ideal.ofBits .f32 0xC0000000#32 = ((-2 : ℝ) : EReal) := by
  simp [Ideal.ofBits, Ideal.ieee, -EReal.coe_mul]; norm_num

/-- Subtracting `k · x` is adding `(−k) · x`, on every extended real. -/
theorem sub_mul_eq (k : ℝ) (a x : EReal) : a - (k : EReal) * x = ((-k : ℝ) : EReal) * x + a := by
  rw [sub_eq_add_neg, EReal.coe_neg, EReal.neg_mul, add_comm]

end Cert.Consts

end
-- ==== Proof.KerHid.lean ====
/-
  STAGE 1's arithmetic at the ideal instance, at an index: from an adjacency block `a`, the features `xb` (the
  contraction's operand) and their block `x` (the skip term's), the weights `w1` and the bias row `b1r`, entry
  `(i, j)` of the hidden block is `max ((∑ k, ((−3) · x i k + ∑ n, a i n · xb n k) · w1 k j) + b1r 0 j) 0`: the two
  matrix products are plain sums, a change of float format is the identity, and `s − 3 · x = (−3) · x + s`.
-/
import proofs.«130568_g9191230013956_cont_9to1_m_1205_10_alg».proof.Proof.Gen.KernelIdeal.Skeleton
import proofs.«130568_g9191230013956_cont_9to1_m_1205_10_alg».proof.Proof.Consts
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KerHid

open Idealize.ShloMosaic Idealize.ShloMosaic.TcCoe Idealize.SL.Sem Idealize.ShloMosaic.ValueIdx
open Cert.KernelIdeal Cert.KernelIdeal.Gen

/-! ## The two matrix products at an index

Each product contracts the left operand's column axis against the right operand's row axis into a zero accumulator,
so its entry `(p, q)` is `∑ k, l p k · r k q`: the four axis equations name the operands' indices at an output
index and a contraction coordinate, and the sum is re-indexed along the contraction's one axis. -/

/-- The left operand's index of the product, on its row axis: the output's row. -/
theorem lhs_agg_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
/-- The left operand's index on its column axis: the contraction's coordinate. -/
theorem lhs_agg_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
/-- The right operand's index on its row axis: the contraction's coordinate. -/
theorem rhs_agg_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
/-- The right operand's index on its column axis: the output's column. -/
theorem rhs_agg_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- The aggregation product into a zero accumulator, at `(p, q)`: the plain sum over the contraction's coordinate. -/
theorem agg_apply (l : FVec Ideal S400x10000 .bf16) (r : FVec Ideal S10000x128 .bf16) (p : Fin 400) (q : Fin 128) :
    matmul dot_S400x10000_S10000x128_S400x128_1_0_0_1_n_n none l r (constant (F := Ideal) S400x128 .f32 0x00000000#32) (ix2 p q)
      = ∑ k : Fin 10000, l (ix2 p k) * r (ix2 k q) := by
  simp only [matmul]
  rw [Ideal.matmul_constant_zero_apply, ← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 p q) ((contrEquiv1 dot_S400x10000_S10000x128_S400x128_1_0_0_1_n_n 10000 rfl rfl).symm k) = ix2 p k := funext fun a => Fin.ext (by
    match a with
    | ⟨0, _⟩ => exact lhs_agg_0 _ _
    | ⟨1, _⟩ => exact (lhs_agg_1 _ _).trans hk)
  have er : dot_S400x10000_S10000x128_S400x128_1_0_0_1_n_n.rhsIdx (ix2 p q) ((contrEquiv1 dot_S400x10000_S10000x128_S400x128_1_0_0_1_n_n 10000 rfl rfl).symm k) = ix2 k q := funext fun a => Fin.ext (by
    match a with
    | ⟨0, _⟩ => exact (rhs_agg_0 _ _).trans hk
    | ⟨1, _⟩ => exact rhs_agg_1 _ _)
  rw [el, er]

/-- The left operand's index of the product, on its row axis: the output's row. -/
theorem lhs_lin_0 (i : S400x64.Idx) (q : dot_S400x128_S128x64_S400x64_1_0_0_1_n_n.contr.Idx) :
    (dot_S400x128_S128x64_S400x64_1_0_0_1_n_n.lhsIdx i q 0).val = (i 0).val := by
  unfold DotDims.lhsIdx
  rw [dif_neg (show ¬(0 : Fin S400x128.rank) ∈ dot_S400x128_S128x64_S400x64_1_0_0_1_n_n.lhsBatch by decide), dif_pos (show (0 : Fin S400x128.rank) ∈ dot_S400x128_S128x64_S400x64_1_0_0_1_n_n.lhsNonContracting by decide)]
  rfl
/-- The left operand's index on its column axis: the contraction's coordinate. -/
theorem lhs_lin_1 (i : S400x64.Idx) (q : dot_S400x128_S128x64_S400x64_1_0_0_1_n_n.contr.Idx) :
    (dot_S400x128_S128x64_S400x64_1_0_0_1_n_n.lhsIdx i q 1).val = (q ⟨0, by decide⟩).val :=
  dot_S400x128_S128x64_S400x64_1_0_0_1_n_n.lhsIdx_val_of_single rfl i q
/-- The right operand's index on its row axis: the contraction's coordinate. -/
theorem rhs_lin_0 (i : S400x64.Idx) (q : dot_S400x128_S128x64_S400x64_1_0_0_1_n_n.contr.Idx) :
    (dot_S400x128_S128x64_S400x64_1_0_0_1_n_n.rhsIdx i q 0).val = (q ⟨0, by decide⟩).val :=
  dot_S400x128_S128x64_S400x64_1_0_0_1_n_n.rhsIdx_val_of_single rfl i q
/-- The right operand's index on its column axis: the output's column. -/
theorem rhs_lin_1 (i : S400x64.Idx) (q : dot_S400x128_S128x64_S400x64_1_0_0_1_n_n.contr.Idx) :
    (dot_S400x128_S128x64_S400x64_1_0_0_1_n_n.rhsIdx i q 1).val = (i 1).val := by
  unfold DotDims.rhsIdx
  rw [dif_neg (show ¬(1 : Fin S128x64.rank) ∈ dot_S400x128_S128x64_S400x64_1_0_0_1_n_n.rhsBatch by decide), dif_pos (show (1 : Fin S128x64.rank) ∈ dot_S400x128_S128x64_S400x64_1_0_0_1_n_n.rhsNonContracting by decide)]
  rfl

/-- The linear layer's product into a zero accumulator, at `(p, q)`: the plain sum over the contraction's coordinate. -/
theorem lin_apply (l : FVec Ideal S400x128 .bf16) (r : FVec Ideal S128x64 .bf16) (p : Fin 400) (q : Fin 64) :
    matmul dot_S400x128_S128x64_S400x64_1_0_0_1_n_n none l r (constant (F := Ideal) S400x64 .f32 0x00000000#32) (ix2 p q)
      = ∑ k : Fin 128, l (ix2 p k) * r (ix2 k q) := by
  simp only [matmul]
  rw [Ideal.matmul_constant_zero_apply, ← Equiv.sum_comp (contrEquiv1 dot_S400x128_S128x64_S400x64_1_0_0_1_n_n 128 rfl rfl).symm]
  refine Finset.sum_congr rfl fun k _ => ?_
  have hk := contrEquiv1_symm_val dot_S400x128_S128x64_S400x64_1_0_0_1_n_n 128 rfl rfl k
  have el : dot_S400x128_S128x64_S400x64_1_0_0_1_n_n.lhsIdx (ix2 p q) ((contrEquiv1 dot_S400x128_S128x64_S400x64_1_0_0_1_n_n 128 rfl rfl).symm k) = ix2 p k := funext fun a => Fin.ext (by
    match a with
    | ⟨0, _⟩ => exact lhs_lin_0 _ _
    | ⟨1, _⟩ => exact (lhs_lin_1 _ _).trans hk)
  have er : dot_S400x128_S128x64_S400x64_1_0_0_1_n_n.rhsIdx (ix2 p q) ((contrEquiv1 dot_S400x128_S128x64_S400x64_1_0_0_1_n_n 128 rfl rfl).symm k) = ix2 k q := funext fun a => Fin.ext (by
    match a with
    | ⟨0, _⟩ => exact (rhs_lin_0 _ _).trans hk
    | ⟨1, _⟩ => exact rhs_lin_1 _ _)
  rw [el, er]

/-! ## The payloads at an index -/

variable (a : Vec Ideal S400x10000 .f32) (xb : Vec Ideal S10000x128 .bf16) (x : Vec Ideal S400x128 .f32)
  (w1 : Vec Ideal S128x64 .f32) (b1r : Vec Ideal S1x64 .f32)

/-- The hidden block's entry, as a plain expression over the extended reals. -/
def hidAt (i : Fin 400) (j : Fin 64) : EReal :=
  max ((∑ k : Fin 128, (((-3 : ℝ) : EReal) * x (ix2 i k) + ∑ n : Fin 10000, a (ix2 i n) * xb (ix2 n k)) * w1 (ix2 k j))
    + b1r (ix2 (0 : Fin 1) j)) 0

/-- The value both stored payloads are read from, at `(i, j)`: every operation but the two products acts entry by
    entry (a change of float format and a cast to the same shape being the identity, the bias row read at its one
    row), each product is its plain sum, the words `3.0` and `0.0` are the reals `3` and `0`, and
    `s − 3 · x = (−3) · x + s`. -/
theorem pay1_apply (i : Fin 400) (j : Fin 64) :
    k0_pay1 (F := Ideal) a xb x w1 b1r (ix2 i j) = hidAt a xb x w1 b1r i j := by
  unfold k0_pay1 hidAt
  simp only [maximumf_apply, addf_apply, broadcast_apply, lin_apply, truncf_apply, subf_apply, mulf_apply, agg_apply,
    shapeCast_self, broadcastTo_1b_ab_apply, Ideal.ofBits_def, Cert.Consts.ofBits_three, Cert.Consts.ofBits_zero,
    Cert.Consts.sub_mul_eq]

/-- The f32 payload stage 1 stores. -/
theorem pay2_apply (i : Fin 400) (j : Fin 64) :
    k0_pay2 (F := Ideal) a xb x w1 b1r (ix2 i j) = hidAt a xb x w1 b1r i j := by
  unfold k0_pay2
  simp only [shapeCast_self]
  exact pay1_apply a xb x w1 b1r i j

/-- The bf16 payload stage 1 stores: the same value (a change of float format is the identity). -/
theorem pay3_apply (i : Fin 400) (j : Fin 64) :
    k0_pay3 (F := Ideal) a xb x w1 b1r (ix2 i j) = hidAt a xb x w1 b1r i j := by
  unfold k0_pay3
  simp only [shapeCast_self, truncf_apply]
  exact pay1_apply a xb x w1 b1r i j

end Cert.KerHid

end
-- ==== Proof.KerOut.lean ====
/-
  STAGE 2's arithmetic at the ideal instance, at an index: from an adjacency block `a`, the complete hidden layer `hb`
  (the contraction's operand) and its block `hf` (the skip term's), the weights `w2`, `w3` and the bias rows `b2r`,
  `b3r`, entry `i` of the output block is
  `(∑ l, max ((∑ j, ((−2) · hf i j + ∑ n, a i n · hb n j) · w2 j l) + b2r 0 l) 0 · w3 l 0) + b3r 0 0`.
-/
import proofs.«130568_g9191230013956_cont_9to1_m_1205_10_alg».proof.Proof.Gen.KernelIdeal.Skeleton
import proofs.«130568_g9191230013956_cont_9to1_m_1205_10_alg».proof.Proof.Consts
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KerOut

open Idealize.ShloMosaic Idealize.ShloMosaic.TcCoe Idealize.SL.Sem Idealize.ShloMosaic.ValueIdx
open Cert.KernelIdeal Cert.KernelIdeal.Gen

/-! ### The aggregation `A · h`: a 400 × 10000 block times the 10000 × 64 hidden layer -/

/-- The left operand's row is the result's row. -/
theorem lhs_agg_0 (j : S400x64.Idx) (c : dot_S400x10000_S10000x64_S400x64_1_0_0_1_n_n.contr.Idx) :
    (dot_S400x10000_S10000x64_S400x64_1_0_0_1_n_n.lhsIdx j c 0).val = (j 0).val := by
  unfold DotDims.lhsIdx
  rw [dif_neg (show ¬(0 : Fin S400x10000.rank) ∈ dot_S400x10000_S10000x64_S400x64_1_0_0_1_n_n.lhsBatch by decide), dif_pos (show (0 : Fin S400x10000.rank) ∈ dot_S400x10000_S10000x64_S400x64_1_0_0_1_n_n.lhsNonContracting by decide)]
  rfl
/-- The left operand's column is the contraction index. -/
theorem lhs_agg_1 (j : S400x64.Idx) (c : dot_S400x10000_S10000x64_S400x64_1_0_0_1_n_n.contr.Idx) :
    (dot_S400x10000_S10000x64_S400x64_1_0_0_1_n_n.lhsIdx j c 1).val = (c ⟨0, by decide⟩).val :=
  dot_S400x10000_S10000x64_S400x64_1_0_0_1_n_n.lhsIdx_val_of_single rfl j c
/-- The right operand's row is the contraction index. -/
theorem rhs_agg_0 (j : S400x64.Idx) (c : dot_S400x10000_S10000x64_S400x64_1_0_0_1_n_n.contr.Idx) :
    (dot_S400x10000_S10000x64_S400x64_1_0_0_1_n_n.rhsIdx j c 0).val = (c ⟨0, by decide⟩).val :=
  dot_S400x10000_S10000x64_S400x64_1_0_0_1_n_n.rhsIdx_val_of_single rfl j c
/-- The right operand's column is the result's column. -/
theorem rhs_agg_1 (j : S400x64.Idx) (c : dot_S400x10000_S10000x64_S400x64_1_0_0_1_n_n.contr.Idx) :
    (dot_S400x10000_S10000x64_S400x64_1_0_0_1_n_n.rhsIdx j c 1).val = (j 1).val := by
  unfold DotDims.rhsIdx
  rw [dif_neg (show ¬(1 : Fin S10000x64.rank) ∈ dot_S400x10000_S10000x64_S400x64_1_0_0_1_n_n.rhsBatch by decide), dif_pos (show (1 : Fin S10000x64.rank) ∈ dot_S400x10000_S10000x64_S400x64_1_0_0_1_n_n.rhsNonContracting by decide)]
  rfl

/-- Into the zero accumulator, entry `(p, c)` of the product is `∑ k, l p k · r k c`. -/
theorem matmul_agg_apply {φ₁ φ₂ : FTy} (l : FVec Ideal S400x10000 φ₁) (r : FVec Ideal S10000x64 φ₂) (p : Fin 400) (c : Fin 64) :
    matmul dot_S400x10000_S10000x64_S400x64_1_0_0_1_n_n none l r (constant S400x64 .f32 0x00000000#32) (ix2 p c)
      = ∑ k : Fin 10000, l (ix2 p k) * r (ix2 k c) := by
  refine (Ideal.matmul_constant_zero_apply dot_S400x10000_S10000x64_S400x64_1_0_0_1_n_n none l r (ix2 p c)).trans ?_
  rw [← Equiv.sum_comp (contrEquiv1 dot_S400x10000_S10000x64_S400x64_1_0_0_1_n_n 10000 rfl rfl).symm]
  refine Finset.sum_congr rfl fun k _ => ?_
  have hk := contrEquiv1_symm_val dot_S400x10000_S10000x64_S400x64_1_0_0_1_n_n 10000 rfl rfl k
  have el : dot_S400x10000_S10000x64_S400x64_1_0_0_1_n_n.lhsIdx (ix2 p c) ((contrEquiv1 dot_S400x10000_S10000x64_S400x64_1_0_0_1_n_n 10000 rfl rfl).symm k) = ix2 p k := funext fun ax => Fin.ext (by
    match ax with
    | ⟨0, _⟩ => exact lhs_agg_0 _ _
    | ⟨1, _⟩ => exact (lhs_agg_1 _ _).trans hk)
  have er : dot_S400x10000_S10000x64_S400x64_1_0_0_1_n_n.rhsIdx (ix2 p c) ((contrEquiv1 dot_S400x10000_S10000x64_S400x64_1_0_0_1_n_n 10000 rfl rfl).symm k) = ix2 k c := funext fun ax => Fin.ext (by
    match ax with
    | ⟨0, _⟩ => exact (rhs_agg_0 _ _).trans hk
    | ⟨1, _⟩ => exact rhs_agg_1 _ _)
  rw [el, er]

/-! ### The second layer's weights: 400 × 64 times 64 × 32 -/

/-- The left operand's row is the result's row. -/
theorem lhs_lin2_0 (j : S400x32.Idx) (c : dot_S400x64_S64x32_S400x32_1_0_0_1_n_n.contr.Idx) :
    (dot_S400x64_S64x32_S400x32_1_0_0_1_n_n.lhsIdx j c 0).val = (j 0).val := by
  unfold DotDims.lhsIdx
  rw [dif_neg (show ¬(0 : Fin S400x64.rank) ∈ dot_S400x64_S64x32_S400x32_1_0_0_1_n_n.lhsBatch by decide), dif_pos (show (0 : Fin S400x64.rank) ∈ dot_S400x64_S64x32_S400x32_1_0_0_1_n_n.lhsNonContracting by decide)]
  rfl
/-- The left operand's column is the contraction index. -/
theorem lhs_lin2_1 (j : S400x32.Idx) (c : dot_S400x64_S64x32_S400x32_1_0_0_1_n_n.contr.Idx) :
    (dot_S400x64_S64x32_S400x32_1_0_0_1_n_n.lhsIdx j c 1).val = (c ⟨0, by decide⟩).val :=
  dot_S400x64_S64x32_S400x32_1_0_0_1_n_n.lhsIdx_val_of_single rfl j c
/-- The right operand's row is the contraction index. -/
theorem rhs_lin2_0 (j : S400x32.Idx) (c : dot_S400x64_S64x32_S400x32_1_0_0_1_n_n.contr.Idx) :
    (dot_S400x64_S64x32_S400x32_1_0_0_1_n_n.rhsIdx j c 0).val = (c ⟨0, by decide⟩).val :=
  dot_S400x64_S64x32_S400x32_1_0_0_1_n_n.rhsIdx_val_of_single rfl j c
/-- The right operand's column is the result's column. -/
theorem rhs_lin2_1 (j : S400x32.Idx) (c : dot_S400x64_S64x32_S400x32_1_0_0_1_n_n.contr.Idx) :
    (dot_S400x64_S64x32_S400x32_1_0_0_1_n_n.rhsIdx j c 1).val = (j 1).val := by
  unfold DotDims.rhsIdx
  rw [dif_neg (show ¬(1 : Fin S64x32.rank) ∈ dot_S400x64_S64x32_S400x32_1_0_0_1_n_n.rhsBatch by decide), dif_pos (show (1 : Fin S64x32.rank) ∈ dot_S400x64_S64x32_S400x32_1_0_0_1_n_n.rhsNonContracting by decide)]
  rfl

/-- Into the zero accumulator, entry `(p, c)` of the product is `∑ k, l p k · r k c`. -/
theorem matmul_lin2_apply {φ₁ φ₂ : FTy} (l : FVec Ideal S400x64 φ₁) (r : FVec Ideal S64x32 φ₂) (p : Fin 400) (c : Fin 32) :
    matmul dot_S400x64_S64x32_S400x32_1_0_0_1_n_n none l r (constant S400x32 .f32 0x00000000#32) (ix2 p c)
      = ∑ k : Fin 64, l (ix2 p k) * r (ix2 k c) := by
  refine (Ideal.matmul_constant_zero_apply dot_S400x64_S64x32_S400x32_1_0_0_1_n_n none l r (ix2 p c)).trans ?_
  rw [← Equiv.sum_comp (contrEquiv1 dot_S400x64_S64x32_S400x32_1_0_0_1_n_n 64 rfl rfl).symm]
  refine Finset.sum_congr rfl fun k _ => ?_
  have hk := contrEquiv1_symm_val dot_S400x64_S64x32_S400x32_1_0_0_1_n_n 64 rfl rfl k
  have el : dot_S400x64_S64x32_S400x32_1_0_0_1_n_n.lhsIdx (ix2 p c) ((contrEquiv1 dot_S400x64_S64x32_S400x32_1_0_0_1_n_n 64 rfl rfl).symm k) = ix2 p k := funext fun ax => Fin.ext (by
    match ax with
    | ⟨0, _⟩ => exact lhs_lin2_0 _ _
    | ⟨1, _⟩ => exact (lhs_lin2_1 _ _).trans hk)
  have er : dot_S400x64_S64x32_S400x32_1_0_0_1_n_n.rhsIdx (ix2 p c) ((contrEquiv1 dot_S400x64_S64x32_S400x32_1_0_0_1_n_n 64 rfl rfl).symm k) = ix2 k c := funext fun ax => Fin.ext (by
    match ax with
    | ⟨0, _⟩ => exact (rhs_lin2_0 _ _).trans hk
    | ⟨1, _⟩ => exact rhs_lin2_1 _ _)
  rw [el, er]

/-! ### The output layer's weights: 400 × 32 times 32 × 1 -/

/-- The left operand's row is the result's row. -/
theorem lhs_lin3_0 (j : S400x1.Idx) (c : dot_S400x32_S32x1_S400x1_1_0_0_1_n_n.contr.Idx) :
    (dot_S400x32_S32x1_S400x1_1_0_0_1_n_n.lhsIdx j c 0).val = (j 0).val := by
  unfold DotDims.lhsIdx
  rw [dif_neg (show ¬(0 : Fin S400x32.rank) ∈ dot_S400x32_S32x1_S400x1_1_0_0_1_n_n.lhsBatch by decide), dif_pos (show (0 : Fin S400x32.rank) ∈ dot_S400x32_S32x1_S400x1_1_0_0_1_n_n.lhsNonContracting by decide)]
  rfl
/-- The left operand's column is the contraction index. -/
theorem lhs_lin3_1 (j : S400x1.Idx) (c : dot_S400x32_S32x1_S400x1_1_0_0_1_n_n.contr.Idx) :
    (dot_S400x32_S32x1_S400x1_1_0_0_1_n_n.lhsIdx j c 1).val = (c ⟨0, by decide⟩).val :=
  dot_S400x32_S32x1_S400x1_1_0_0_1_n_n.lhsIdx_val_of_single rfl j c
/-- The right operand's row is the contraction index. -/
theorem rhs_lin3_0 (j : S400x1.Idx) (c : dot_S400x32_S32x1_S400x1_1_0_0_1_n_n.contr.Idx) :
    (dot_S400x32_S32x1_S400x1_1_0_0_1_n_n.rhsIdx j c 0).val = (c ⟨0, by decide⟩).val :=
  dot_S400x32_S32x1_S400x1_1_0_0_1_n_n.rhsIdx_val_of_single rfl j c
/-- The right operand's column is the result's column. -/
theorem rhs_lin3_1 (j : S400x1.Idx) (c : dot_S400x32_S32x1_S400x1_1_0_0_1_n_n.contr.Idx) :
    (dot_S400x32_S32x1_S400x1_1_0_0_1_n_n.rhsIdx j c 1).val = (j 1).val := by
  unfold DotDims.rhsIdx
  rw [dif_neg (show ¬(1 : Fin S32x1.rank) ∈ dot_S400x32_S32x1_S400x1_1_0_0_1_n_n.rhsBatch by decide), dif_pos (show (1 : Fin S32x1.rank) ∈ dot_S400x32_S32x1_S400x1_1_0_0_1_n_n.rhsNonContracting by decide)]
  rfl

/-- Into the zero accumulator, entry `(p, c)` of the product is `∑ k, l p k · r k c`. -/
theorem matmul_lin3_apply {φ₁ φ₂ : FTy} (l : FVec Ideal S400x32 φ₁) (r : FVec Ideal S32x1 φ₂) (p : Fin 400) (c : Fin 1) :
    matmul dot_S400x32_S32x1_S400x1_1_0_0_1_n_n none l r (constant S400x1 .f32 0x00000000#32) (ix2 p c)
      = ∑ k : Fin 32, l (ix2 p k) * r (ix2 k c) := by
  refine (Ideal.matmul_constant_zero_apply dot_S400x32_S32x1_S400x1_1_0_0_1_n_n none l r (ix2 p c)).trans ?_
  rw [← Equiv.sum_comp (contrEquiv1 dot_S400x32_S32x1_S400x1_1_0_0_1_n_n 32 rfl rfl).symm]
  refine Finset.sum_congr rfl fun k _ => ?_
  have hk := contrEquiv1_symm_val dot_S400x32_S32x1_S400x1_1_0_0_1_n_n 32 rfl rfl k
  have el : dot_S400x32_S32x1_S400x1_1_0_0_1_n_n.lhsIdx (ix2 p c) ((contrEquiv1 dot_S400x32_S32x1_S400x1_1_0_0_1_n_n 32 rfl rfl).symm k) = ix2 p k := funext fun ax => Fin.ext (by
    match ax with
    | ⟨0, _⟩ => exact lhs_lin3_0 _ _
    | ⟨1, _⟩ => exact (lhs_lin3_1 _ _).trans hk)
  have er : dot_S400x32_S32x1_S400x1_1_0_0_1_n_n.rhsIdx (ix2 p c) ((contrEquiv1 dot_S400x32_S32x1_S400x1_1_0_0_1_n_n 32 rfl rfl).symm k) = ix2 k c := funext fun ax => Fin.ext (by
    match ax with
    | ⟨0, _⟩ => exact (rhs_lin3_0 _ _).trans hk
    | ⟨1, _⟩ => exact rhs_lin3_1 _ _)
  rw [el, er]

variable (a : Vec Ideal S400x10000 .f32) (hb : Vec Ideal S10000x64 .bf16) (hf : Vec Ideal S400x64 .f32)
  (w2 : Vec Ideal S64x32 .f32) (b2r : Vec Ideal S1x32 .f32) (w3 : Vec Ideal S32x1 .f32) (b3r : Vec Ideal S1x1 .f32)

/-- The second hidden layer's entry. -/
def hid2At (i : Fin 400) (l : Fin 32) : EReal :=
  max ((∑ j : Fin 64, (((-2 : ℝ) : EReal) * hf (ix2 i j) + ∑ n : Fin 10000, a (ix2 i n) * hb (ix2 n j)) * w2 (ix2 j l))
    + b2r (ix2 (0 : Fin 1) l)) 0

/-- The output block's entry. -/
def outAt (i : Fin 400) (q : Fin 1) : EReal :=
  (∑ l : Fin 32, hid2At a hb hf w2 b2r i l * w3 (ix2 l q)) + b3r (ix2 (0 : Fin 1) q)

/-- The payload stage 2 stores. -/
theorem pay4_apply (i : Fin 400) (q : Fin 1) :
    k0_pay4 (F := Ideal) a hb hf w2 b2r w3 b3r (ix2 i q) = outAt a hb hf w2 b2r w3 b3r i q := by
  unfold k0_pay4 outAt
  -- the output layer's product, plus the bias row read at column `q`
  refine (addf_apply _ _ _).trans (congrArg₂ (· + ·) ?_ ?_)
  · refine (matmul_lin3_apply _ _ i q).trans
      (Finset.sum_congr rfl fun l _ => congrArg₂ (· * ·) ?_ (truncf_apply (φ := .f32) (ψ := .bf16) _ bitsLt_bf16_f32 _))
    -- the second hidden layer at `(i, l)`: the positive part of the product plus the bias row
    refine (truncf_apply (φ := .f32) (ψ := .bf16) _ bitsLt_bf16_f32 _).trans ((maximumf_apply _ _ _).trans ?_)
    unfold hid2At
    refine congrArg₂ max ((addf_apply _ _ _).trans (congrArg₂ (· + ·) ?_ ?_))
      ((broadcast_apply _ _).trans Cert.Consts.ofBits_zero)
    · refine (matmul_lin2_apply _ _ i l).trans
        (Finset.sum_congr rfl fun j _ => congrArg₂ (· * ·) ?_ (truncf_apply (φ := .f32) (ψ := .bf16) _ bitsLt_bf16_f32 _))
      -- the aggregated entry minus twice the skip entry is `(−2) · hf i j` plus the aggregated entry
      refine (truncf_apply (φ := .f32) (ψ := .bf16) _ bitsLt_bf16_f32 _).trans ((subf_apply _ _ _).trans ?_)
      refine Eq.trans (congrArg₂ (· - ·) ?_ ?_) (Cert.Consts.sub_mul_eq 2 _ _)
      · exact (matmul_agg_apply _ _ i j).trans
          (Finset.sum_congr rfl fun n _ => congrArg₂ (· * ·) (truncf_apply (φ := .f32) (ψ := .bf16) _ bitsLt_bf16_f32 _) rfl)
      · exact (mulf_apply _ _ _).trans
          (congrArg₂ (· * ·) ((broadcast_apply _ _).trans Cert.Consts.ofBits_two) rfl)
    · rw [shapeCast_self]
      exact broadcastTo_1b_ab_apply _ _ i l
  · rw [shapeCast_self]
    exact broadcastTo_1b_ab_apply _ _ i q

end Cert.KerOut

end
-- ==== Proof.KerValue.lean ====
/-
  The kernel's output array, at the ideal instance, is the specification's function of the argument arrays.

  Stage 1: the hidden block of point `t`, at row `i` and column `j`, is `Spec.hid` at row `400 (t % 25) + i`: the block of
  the adjacency is its rows `[400 (t % 25), 400 (t % 25) + 400)`, and likewise the features' block.  So the complete
  hidden layer, row `r` of which is row `r % 400` of the block of point `r / 400`, is `Spec.hid` at row `r`.  Stage 2
  likewise over the complete hidden layer: the output block of point `t` at row `i` is `Spec.out` at row
  `400 (t % 25) + i`, and row `r` of the output array is row `r % 400` of the block of point `25 + r / 400`.
-/
import proofs.«130568_g9191230013956_cont_9to1_m_1205_10_alg».proof.Proof.Ideal.Final
import proofs.«130568_g9191230013956_cont_9to1_m_1205_10_alg».proof.Proof.Spec
import proofs.«130568_g9191230013956_cont_9to1_m_1205_10_alg».proof.Proof.KerIn
import proofs.«130568_g9191230013956_cont_9to1_m_1205_10_alg».proof.Proof.KerHid
import proofs.«130568_g9191230013956_cont_9to1_m_1205_10_alg».proof.Proof.KerOut

set_option maxRecDepth 16384

noncomputable section

namespace Cert.KerValue

open Idealize.ShloMosaic Idealize.ShloMosaic.TcCoe Idealize.SL.Sem Idealize.ShloMosaic.ValueIdx
open Cert.KernelIdeal Cert.KernelIdeal.Gen Cert.KernelIdeal.Hand Cert.RowBlocks
open Cert.KerIn Cert.KerHid Cert.KerOut

variable (m : (ℓ : Loc nD τ sig) → Buf (Elt Ideal) ℓ) (c : Dev nD)

/-- The hidden block of point `t` at `(i, j)` is the hidden layer at row `400 (t % 25) + i`. -/
theorem hidAt_point (t : Fin cfg0.N) (i : Fin 400) (j : Fin 64) :
    hidAt (iblk (F := Ideal) m c 0 t) (iblk (F := Ideal) m c 1 t) (iblk (F := Ideal) m c 2 t) (iblk (F := Ideal) m c 4 t)
        (iblk (F := Ideal) m c 3 t) i j
      = Cert.Spec.hid (m ((c.tc : Thread nD τ).loc main_arg0)) (m ((c.tc : Thread nD τ).loc main_arg1)) (m ((c.tc : Thread nD τ).loc main_arg2)) (m ((c.tc : Thread nD τ).loc main_arg3)) (⟨400 * (t.val % 25) + i.val, row_lt t i⟩ : Fin 10000) j := by
  unfold hidAt Cert.Spec.hid Cert.Spec.pre1
  simp only [in0, in1, in2, in3, in4]

theorem row_eq (r : Fin 10000) : 400 * (r.val / 400 % 25) + r.val % 400 = r.val := by
  have := r.isLt; omega

/-- The complete hidden layer, bf16 copy. -/
theorem hidB_eq (n : Fin 10000) (j : Fin 64) :
    HidB (F := Ideal) m c (ix2 n j) = Cert.Spec.hid (m ((c.tc : Thread nD τ).loc main_arg0)) (m ((c.tc : Thread nD τ).loc main_arg1)) (m ((c.tc : Thread nD τ).loc main_arg2)) (m ((c.tc : Thread nD τ).loc main_arg3)) n j := by
  show hidB (F := Ideal) m c (pt1 ⟨n.val / 400, _⟩) (ix2 (⟨n.val % 400, _⟩ : Fin 400) j) = _
  unfold hidB
  rw [pay3_apply, hidAt_point]
  exact congrArg (fun r => Cert.Spec.hid (m ((c.tc : Thread nD τ).loc main_arg0)) (m ((c.tc : Thread nD τ).loc main_arg1)) (m ((c.tc : Thread nD τ).loc main_arg2)) (m ((c.tc : Thread nD τ).loc main_arg3)) r j) (Fin.ext (row_eq n))

/-- The complete hidden layer, f32 copy. -/
theorem hidF_eq (n : Fin 10000) (j : Fin 64) :
    HidF (F := Ideal) m c (ix2 n j) = Cert.Spec.hid (m ((c.tc : Thread nD τ).loc main_arg0)) (m ((c.tc : Thread nD τ).loc main_arg1)) (m ((c.tc : Thread nD τ).loc main_arg2)) (m ((c.tc : Thread nD τ).loc main_arg3)) n j := by
  show hidF (F := Ideal) m c (pt1 ⟨n.val / 400, _⟩) (ix2 (⟨n.val % 400, _⟩ : Fin 400) j) = _
  unfold hidF
  rw [pay2_apply, hidAt_point]
  exact congrArg (fun r => Cert.Spec.hid (m ((c.tc : Thread nD τ).loc main_arg0)) (m ((c.tc : Thread nD τ).loc main_arg1)) (m ((c.tc : Thread nD τ).loc main_arg2)) (m ((c.tc : Thread nD τ).loc main_arg3)) r j) (Fin.ext (row_eq n))

/-- The hidden rows a stage-2 point reads. -/
theorem getBlk_hidF (t : Fin cfg0.N) (i : Fin 400) (j : Fin 64) :
    getBlk (HidF (F := Ideal) m c) (blkOf t) (ix2 i j)
      = Cert.Spec.hid (m ((c.tc : Thread nD τ).loc main_arg0)) (m ((c.tc : Thread nD τ).loc main_arg1)) (m ((c.tc : Thread nD τ).loc main_arg2)) (m ((c.tc : Thread nD τ).loc main_arg3)) (⟨400 * (t.val % 25) + i.val, row_lt t i⟩ : Fin 10000) j := by
  show HidF (F := Ideal) m c (ix2 (⟨400 * (t.val % 25) + i.val, _⟩ : Fin 10000) j) = _
  exact hidF_eq m c _ j

/-- The second hidden layer of point `t` at `(i, l)`. -/
theorem hid2At_point (t : Fin cfg0.N) (i : Fin 400) (l : Fin 32) :
    hid2At (iblk (F := Ideal) m c 0 t) (HidB (F := Ideal) m c) (getBlk (HidF (F := Ideal) m c) (blkOf t))
        (iblk (F := Ideal) m c 6 t) (iblk (F := Ideal) m c 5 t) i l
      = Cert.Spec.hid2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (⟨400 * (t.val % 25) + i.val, row_lt t i⟩ : Fin 10000) l := by
  unfold hid2At Cert.Spec.hid2 Cert.Spec.pre2
  rw [in5]
  refine congrArg (fun s : EReal => max (s + (m ((c.tc : Thread nD τ).loc main_arg5)) (ix1 l)) 0) (Finset.sum_congr rfl fun j _ => ?_)
  rw [getBlk_hidF, in6]
  refine congrArg (fun s : EReal => (((-2 : ℝ) : EReal) * Cert.Spec.hid (m ((c.tc : Thread nD τ).loc main_arg0)) (m ((c.tc : Thread nD τ).loc main_arg1)) (m ((c.tc : Thread nD τ).loc main_arg2)) (m ((c.tc : Thread nD τ).loc main_arg3)) (⟨400 * (t.val % 25) + i.val, row_lt t i⟩ : Fin 10000) j + s) * (m ((c.tc : Thread nD τ).loc main_arg4)) (ix2 j l)) (Finset.sum_congr rfl fun n _ => ?_)
  rw [in0, hidB_eq]

set_option maxHeartbeats 800000 in
/-- The output block of point `t` at `(i, q)`. -/
theorem outAt_point (t : Fin cfg0.N) (i : Fin 400) (q : Fin 1) :
    outBlk (F := Ideal) m c t (ix2 i q)
      = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (ix2 (⟨400 * (t.val % 25) + i.val, row_lt t i⟩ : Fin 10000) q) := by
  unfold outBlk
  refine (pay4_apply (iblk (F := Ideal) m c 0 t) (HidB (F := Ideal) m c) (getBlk (HidF (F := Ideal) m c) (blkOf t))
    (iblk (F := Ideal) m c 6 t) (iblk (F := Ideal) m c 5 t) (iblk (F := Ideal) m c 7 t) (iblk (F := Ideal) m c 8 t) i q).trans ?_
  unfold outAt
  show _ = (∑ l : Fin 32, Cert.Spec.hid2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (⟨400 * (t.val % 25) + i.val, row_lt t i⟩ : Fin 10000) l * (m ((c.tc : Thread nD τ).loc main_arg6)) (ix2 l q)) + (m ((c.tc : Thread nD τ).loc main_arg7)) (ix1 q)
  rw [in8]
  refine congrArg (fun s : EReal => s + (m ((c.tc : Thread nD τ).loc main_arg7)) (ix1 q)) (Finset.sum_congr rfl fun l _ => ?_)
  rw [hid2At_point, in7]

/-- The output array the kernel leaves is `Spec.out` of the arrays it was launched on. -/
theorem outArr_eq :
    OutArr (F := Ideal) m c = fun y => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) y := by
  funext y
  refine (outAt_point m c (pt2 ⟨(y 0).val / 400, oblk_lt y⟩) (⟨(y 0).val % 400, Nat.mod_lt _ (by decide)⟩ : Fin 400) (y 1)).trans ?_
  refine congrArg (Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) ?_
  funext a
  match a with
  | ⟨0, _⟩ => exact Fin.ext (by
      show 400 * ((25 + (y 0).val / 400) % 25) + (y 0).val % 400 = (y 0).val
      have := idx2_lt0 y; omega)
  | ⟨1, _⟩ => rfl

end Cert.KerValue

end
-- ==== Proof.RefValue.lean ====
/-
  The reference's result, read one operation at a time, is the specification's function of the argument arrays: each
  `dot_general` is a plain sum over its contracted axis, each broadcast reads its operand at the broadcast index, the
  two constants are `−3` and `−2`, `relu` is the maximum with `0`.
-/
import proofs.«130568_g9191230013956_cont_9to1_m_1205_10_alg».proof.Proof.Gen.ReferenceIdeal.Read
import proofs.«130568_g9191230013956_cont_9to1_m_1205_10_alg».proof.Proof.Spec
import proofs.«130568_g9191230013956_cont_9to1_m_1205_10_alg».proof.Proof.Consts

set_option maxRecDepth 16384

noncomputable section

namespace Cert.RefValue

open Idealize.ShloMosaic Idealize.ShloMosaic.ValueIdx
open Cert.ReferenceIdeal Cert.ReferenceIdeal.Gen Cert.ReferenceIdeal.Read

/-- The first pre-activation: `−3 · X + A · X` at row `r`, column `k`. -/
theorem v3_eq (x0 : (⟨S10000x10000, .f32⟩ : BufTy).Contents (Elt Ideal))
    (x1 : (⟨S10000x128, .f32⟩ : BufTy).Contents (Elt Ideal))
    (r : Fin 10000) (k : Fin 128) :
    val_main_v3 (F := Ideal) x0 x1 (ix2 r k) = Cert.Spec.pre1 x0 x1 r k := by
  rw [val_main_v3_apply, val_main_v2_apply, val_main_v1_apply, val_main_cst_apply, val_main_v0_apply]
  have el : ∀ n : Fin 10000, lidx_main_v0 (ix2 r k) n = ix2 r n := fun n =>
    funext fun a => Fin.ext (by match a with | ⟨0, _⟩ => rfl | ⟨1, _⟩ => rfl)
  have er : ∀ n : Fin 10000, ridx_main_v0 (ix2 r k) n = ix2 n k := fun n =>
    funext fun a => Fin.ext (by match a with | ⟨0, _⟩ => rfl | ⟨1, _⟩ => rfl)
  simp only [el, er, Ideal.addf_def, Ideal.mulf_def, Ideal.ofBits_def, Cert.Consts.ofBits_neg_three]
  rfl

/-- The hidden layer: `relu (pre1 · W1 + b1)` at row `r`, column `j`. -/
theorem v8_eq (x0 : (⟨S10000x10000, .f32⟩ : BufTy).Contents (Elt Ideal))
    (x1 : (⟨S10000x128, .f32⟩ : BufTy).Contents (Elt Ideal))
    (x2 : (⟨S128x64, .f32⟩ : BufTy).Contents (Elt Ideal))
    (x3 : (⟨S64, .f32⟩ : BufTy).Contents (Elt Ideal))
    (r : Fin 10000) (j : Fin 64) :
    val_main_v8 (F := Ideal) x0 x1 x2 x3 (ix2 r j) = Cert.Spec.hid x0 x1 x2 x3 r j := by
  rw [val_main_v8_apply, val_main_v7_apply, val_main_v4_apply, val_main_v6_apply, val_main_v5_apply,
    val_main_call0_v0_apply, val_main_call0_cst_apply]
  have el : ∀ n : Fin 128, lidx_main_v4 (ix2 r j) n = ix2 r n := fun n =>
    funext fun a => Fin.ext (by match a with | ⟨0, _⟩ => rfl | ⟨1, _⟩ => rfl)
  have er : ∀ n : Fin 128, ridx_main_v4 (ix2 r j) n = ix2 n j := fun n =>
    funext fun a => Fin.ext (by match a with | ⟨0, _⟩ => rfl | ⟨1, _⟩ => rfl)
  have eb : idx_main_v5 (idx_main_v6 (ix2 r j)) = ix1 j :=
    funext fun a => Fin.ext (by match a with | ⟨0, _⟩ => rfl)
  simp only [el, er, eb, v3_eq, Ideal.addf_def, Ideal.maximumf_def, Ideal.ofBits_def, Cert.Consts.ofBits_zero]
  rfl

/-- The second pre-activation: `−2 · hid + A · hid` at row `r`, column `j`. -/
theorem v12_eq (x0 : (⟨S10000x10000, .f32⟩ : BufTy).Contents (Elt Ideal))
    (x1 : (⟨S10000x128, .f32⟩ : BufTy).Contents (Elt Ideal))
    (x2 : (⟨S128x64, .f32⟩ : BufTy).Contents (Elt Ideal))
    (x3 : (⟨S64, .f32⟩ : BufTy).Contents (Elt Ideal))
    (r : Fin 10000) (j : Fin 64) :
    val_main_v12 (F := Ideal) x0 x1 x2 x3 (ix2 r j) = Cert.Spec.pre2 x0 x1 x2 x3 r j := by
  rw [val_main_v12_apply, val_main_v11_apply, val_main_v10_apply, val_main_cst_0_apply, val_main_v9_apply]
  have el : ∀ n : Fin 10000, lidx_main_v9 (ix2 r j) n = ix2 r n := fun n =>
    funext fun a => Fin.ext (by match a with | ⟨0, _⟩ => rfl | ⟨1, _⟩ => rfl)
  have er : ∀ n : Fin 10000, ridx_main_v9 (ix2 r j) n = ix2 n j := fun n =>
    funext fun a => Fin.ext (by match a with | ⟨0, _⟩ => rfl | ⟨1, _⟩ => rfl)
  simp only [el, er, v8_eq, Ideal.addf_def, Ideal.mulf_def, Ideal.ofBits_def, Cert.Consts.ofBits_neg_two]
  rfl

/-- The second hidden layer: `relu (pre2 · W2 + b2)` at row `r`, column `l`. -/
theorem v17_eq (x0 : (⟨S10000x10000, .f32⟩ : BufTy).Contents (Elt Ideal))
    (x1 : (⟨S10000x128, .f32⟩ : BufTy).Contents (Elt Ideal))
    (x2 : (⟨S128x64, .f32⟩ : BufTy).Contents (Elt Ideal))
    (x3 : (⟨S64, .f32⟩ : BufTy).Contents (Elt Ideal))
    (x4 : (⟨S64x32, .f32⟩ : BufTy).Contents (Elt Ideal))
    (x5 : (⟨S32, .f32⟩ : BufTy).Contents (Elt Ideal))
    (r : Fin 10000) (l : Fin 32) :
    val_main_v17 (F := Ideal) x0 x1 x2 x3 x4 x5 (ix2 r l) = Cert.Spec.hid2 x0 x1 x2 x3 x4 x5 r l := by
  rw [val_main_v17_apply, val_main_v16_apply, val_main_v13_apply, val_main_v15_apply, val_main_v14_apply,
    val_main_call1_v0_apply, val_main_call1_cst_apply]
  have el : ∀ n : Fin 64, lidx_main_v13 (ix2 r l) n = ix2 r n := fun n =>
    funext fun a => Fin.ext (by match a with | ⟨0, _⟩ => rfl | ⟨1, _⟩ => rfl)
  have er : ∀ n : Fin 64, ridx_main_v13 (ix2 r l) n = ix2 n l := fun n =>
    funext fun a => Fin.ext (by match a with | ⟨0, _⟩ => rfl | ⟨1, _⟩ => rfl)
  have eb : idx_main_v14 (idx_main_v15 (ix2 r l)) = ix1 l :=
    funext fun a => Fin.ext (by match a with | ⟨0, _⟩ => rfl)
  simp only [el, er, eb, v12_eq, Ideal.addf_def, Ideal.maximumf_def, Ideal.ofBits_def, Cert.Consts.ofBits_zero]
  rfl

/-- The result: `hid2 · W3 + b3` at row `p`, column `q`. -/
theorem v21_eq (x0 : (⟨S10000x10000, .f32⟩ : BufTy).Contents (Elt Ideal))
    (x1 : (⟨S10000x128, .f32⟩ : BufTy).Contents (Elt Ideal))
    (x2 : (⟨S128x64, .f32⟩ : BufTy).Contents (Elt Ideal))
    (x3 : (⟨S64, .f32⟩ : BufTy).Contents (Elt Ideal))
    (x4 : (⟨S64x32, .f32⟩ : BufTy).Contents (Elt Ideal))
    (x5 : (⟨S32, .f32⟩ : BufTy).Contents (Elt Ideal))
    (x6 : (⟨S32x1, .f32⟩ : BufTy).Contents (Elt Ideal))
    (x7 : (⟨S1, .f32⟩ : BufTy).Contents (Elt Ideal))
    (p : Fin 10000) (q : Fin 1) :
    val_main_v21 (F := Ideal) x0 x1 x2 x3 x4 x5 x6 x7 (ix2 p q) = Cert.Spec.out x0 x1 x2 x3 x4 x5 x6 x7 (ix2 p q) := by
  rw [val_main_v21_apply, val_main_v18_apply, val_main_v20_apply, val_main_v19_apply]
  have el : ∀ n : Fin 32, lidx_main_v18 (ix2 p q) n = ix2 p n := fun n =>
    funext fun a => Fin.ext (by match a with | ⟨0, _⟩ => rfl | ⟨1, _⟩ => rfl)
  have er : ∀ n : Fin 32, ridx_main_v18 (ix2 p q) n = ix2 n q := fun n =>
    funext fun a => Fin.ext (by match a with | ⟨0, _⟩ => rfl | ⟨1, _⟩ => rfl)
  have eb : idx_main_v19 (idx_main_v20 (ix2 p q)) = ix1 q :=
    funext fun a => Fin.ext (by match a with | ⟨0, _⟩ => exact (Nat.lt_one_iff.mp q.isLt).symm)
  simp only [el, er, eb, v17_eq, Ideal.addf_def]
  rfl

/-- The reference's last stage is `Spec.out`. -/
theorem ref_eq (x0 : (⟨S10000x10000, .f32⟩ : BufTy).Contents (Elt Ideal)) (x1 : (⟨S10000x128, .f32⟩ : BufTy).Contents (Elt Ideal)) (x2 : (⟨S128x64, .f32⟩ : BufTy).Contents (Elt Ideal)) (x3 : (⟨S64, .f32⟩ : BufTy).Contents (Elt Ideal)) (x4 : (⟨S64x32, .f32⟩ : BufTy).Contents (Elt Ideal)) (x5 : (⟨S32, .f32⟩ : BufTy).Contents (Elt Ideal)) (x6 : (⟨S32x1, .f32⟩ : BufTy).Contents (Elt Ideal)) (x7 : (⟨S1, .f32⟩ : BufTy).Contents (Elt Ideal)) :
    val_main_v21 (F := Ideal) x0 x1 x2 x3 x4 x5 x6 x7 = fun y => Cert.Spec.out x0 x1 x2 x3 x4 x5 x6 x7 y := by
  funext y
  obtain ⟨p, q, rfl⟩ : ∃ (p : Fin 10000) (q : Fin 1), y = ix2 p q := ⟨y 0, y 1, eq_ix2 y⟩
  exact v21_eq x0 x1 x2 x3 x4 x5 x6 x7 p q

end Cert.RefValue

end
-- ==== Proof.lean ====
/-
  The fused two-layer graph filter against its plain reference.

  The kernel streams the adjacency matrix twice through ONE grid of 50 points: points 0 … 24 compute the hidden layer
  `relu ((A · X − 3 · X) · W1 + b1)` block by block into two scratch arrays, points 25 … 49 compute
  `relu ((A · h − 2 · h) · W2 + b2) · W3 + b3` from the complete hidden layer and store the output block by block.
  Every output block is written back twice — once at a first-stage point, with whatever its staging buffer held, and
  once at its second-stage point, with the result — and the later write-back wins.  The reference computes
  `relu (((−3) · X + A · X) · W1 + b1)` and `relu (((−2) · h + A · h) · W2 + b2) · W3 + b3`.  On the extended reals
  `a − k · x = (−k) · x + a`, a change of float format is the identity, and a matrix product is a plain sum however it
  is blocked, so both are the specification's `Spec.out` of the argument arrays.

  The frames of the word-level kernel and of its idealization are one text read at two float instances (`Bits/` is
  `Ideal/` with the program's name substituted): the body's two stages run symbolically, the proof data say what each
  point leaves in each staging buffer, and the region's invariant carries the hidden layer's blocks across the points.
-/
import proofs.«130568_g9191230013956_cont_9to1_m_1205_10_alg».proof.Defs
import proofs.«130568_g9191230013956_cont_9to1_m_1205_10_alg».proof.Proof.Gen.Kernel
import proofs.«130568_g9191230013956_cont_9to1_m_1205_10_alg».proof.Proof.Gen.KernelIdeal
import proofs.«130568_g9191230013956_cont_9to1_m_1205_10_alg».proof.Proof.Gen.ReferenceIdeal
import proofs.«130568_g9191230013956_cont_9to1_m_1205_10_alg».proof.Proof.Gen.Pre_finite_inputs
import proofs.«130568_g9191230013956_cont_9to1_m_1205_10_alg».proof.Proof.Gen.ReferenceIdeal.Run
import proofs.«130568_g9191230013956_cont_9to1_m_1205_10_alg».proof.Proof.Gen.ReferenceIdeal.Read
import proofs.«130568_g9191230013956_cont_9to1_m_1205_10_alg».proof.Proof.Bits.Launch
import proofs.«130568_g9191230013956_cont_9to1_m_1205_10_alg».proof.Proof.Ideal.Launch
import proofs.«130568_g9191230013956_cont_9to1_m_1205_10_alg».proof.Proof.Ideal.Value
import proofs.«130568_g9191230013956_cont_9to1_m_1205_10_alg».proof.Proof.KerValue
import proofs.«130568_g9191230013956_cont_9to1_m_1205_10_alg».proof.Proof.RefValue
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel (hKernel := Cert.Kernel.Gen.facts) (hPre_finite_inputs := Cert.Pre_finite_inputs.Gen.facts) :=
  fun m ρ _ => Cert.Kernel.Hand.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame m ρ

/-- The reference's frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end at `Spec.out` of the arguments they agree on. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Hand.OutArr (F := Ideal) m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Hand.OutArr (F := Ideal) m c
  rw [Cert.ReferenceIdeal.Read.val_main_v21_eq, Cert.RefValue.ref_eq, Cert.KerValue.outArr_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
